-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128 : Shape := ⟨3, ![8, 512, 128]⟩
abbrev S8x512x512 : Shape := ⟨3, ![8, 512, 512]⟩
abbrev S8 : Shape := ⟨1, ![8]⟩
abbrev S_ : Shape := ⟨0, ![]⟩

class Facts : Prop where
  bcast_S_S8x512x128 : S_.BroadcastsInDim S8x512x128 (![] : Fin 0 → Fin S8x512x128.rank)
  reducesTo_S8x512x128_S_d0_1_2 : S8x512x128.ReducesTo [0, 1, 2] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn_part1 {F : FTy → Type} [FloatOps F] (main_v13 : IVec S_ 1) (main_v16 : IVec S8x512x512 1) : IVec S_ 1 :=
  let main_c_5 : IVec S_ 1 := constantI S_ 1 1#1
  let main_v17 : IVec S_ 1 := (fun x v => Host.reduce IntOp.andi x v reducesTo_S8x512x512_S_d0_1_2 h_S_) main_v16 main_c_5
  let main_v18 : IVec S_ 1 := andi main_v13 main_v17
  main_v18

def fn {F : FTy → Type} [FloatOps F] (main_arg0 : FVec F S8x512x128 .f32) (main_arg1 : FVec F S8x512x512 .f32) (main_arg2 : IVec S8 32) (main_arg3 : FVec F S8x512x128 .f32) (main_arg4 : FVec F S8x512x512 .f32) (main_arg5 : IVec S8 32) : IVec S_ 1 :=
  let main_v0 : FVec F S8x512x128 .f32 := Host.absf main_arg0
  let main_cst : FVec F S_ .f32 := constant S_ .f32 0x7F800000#32
  let main_v1 : FVec F S8x512x128 .f32 := broadcastInDim S8x512x128 ![] bcast_S_S8x512x128 main_cst
  let main_v2 : IVec S8x512x128 1 := cmpf .olt main_v0 main_v1
  let main_c : IVec S_ 1 := constantI S_ 1 1#1
  let main_v3 : IVec S_ 1 := (fun x v => Host.reduce IntOp.andi x v reducesTo_S8x512x128_S_d0_1_2 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S8x512x128 .f32 := Host.absf main_arg3
  let main_cst_2 : FVec F S_ .f32 := constant S_ .f32 0x7F800000#32
  let main_v10 : FVec F S8x512x128 .f32 := broadcastInDim S8x512x128 ![] bcast_S_S8x512x128 main_cst_2
  let main_v11 : IVec S8x512x128 1 := cmpf .olt main_v9 main_v10
  let main_c_3 : IVec S_ 1 := constantI S_ 1 1#1
  let main_v12 : IVec S_ 1 := (fun x v => Host.reduce IntOp.andi x v reducesTo_S8x512x128_S_d0_1_2 h_S_) main_v11 main_c_3
  let main_v13 : IVec S_ 1 := andi main_v8 main_v12
  let main_v14 : FVec F S8x512x512 .f32 := Host.absf main_arg4
  let main_cst_4 : FVec F S_ .f32 := constant S_ .f32 0x7F800000#32
  let main_v15 : FVec F S8x512x512 .f32 := broadcastInDim S8x512x512 ![] bcast_S_S8x512x512 main_cst_4
  let main_v16 : IVec S8x512x512 1 := cmpf .olt main_v14 main_v15
  fn_part1 (F := F) main_v13 main_v16
-- ==== Kernel.lean ====
abbrev S8x512x128 : Shape := ⟨3, ![8, 512, 128]⟩
abbrev S8x512x512 : Shape := ⟨3, ![8, 512, 512]⟩
abbrev S8 : Shape := ⟨1, ![8]⟩
abbrev S1x512x128 : Shape := ⟨3, ![1, 512, 128]⟩
abbrev S512x128 : Shape := ⟨2, ![512, 128]⟩
abbrev S512 : Shape := ⟨1, ![512]⟩
abbrev S512x512 : Shape := ⟨2, ![512, 512]⟩
abbrev S512x1 : Shape := ⟨2, ![512, 1]⟩
abbrev S1x512 : Shape := ⟨2, ![1, 512]⟩
abbrev S1 : Shape := ⟨1, ![1]⟩
abbrev S1x1 : Shape := ⟨2, ![1, 1]⟩

abbrev nBuf : Space → Nat
  | .hbm => 5
  | .vmem => 5
  | .smem => 2
  | _ => 0

abbrev bufTy : (tb : Table) → Fin (tcTables nBuf tb) → BufTy
  | .hbm, ⟨0, _⟩ => ⟨S8x512x128, .f32⟩
  | .hbm, ⟨1, _⟩ => ⟨S8x512x512, .f32⟩
  | .hbm, ⟨2, _⟩ => ⟨S8x512x128, .f32⟩
  | .hbm, ⟨3, _⟩ => ⟨S8x512x512, .f32⟩
  | .hbm, ⟨4, _⟩ => ⟨S8, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S8, .f32⟩
  | .local _ .smem, ⟨0, _⟩ => ⟨S8, .i32⟩
  | .local _ .smem, ⟨1, _⟩ => ⟨S8, .i32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg2 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

abbrev pre0 : Pipeline.Prefetch sig := ⟨2, ![main_arg2.idx, main_arg5.idx], fun | 0 => main_arg2.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v20 : Index := Scalar.indexCast arg0
  ![v20.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  reduces_S512x128_S512 : S512x128.Reduces [1] S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  numel1_S1 : S1.numel = 1
  iota_S512x512_d1_w32 : S512x512.Iotas .tc 32 [1]
  iota_S512x512_d0_w32 : S512x512.Iotas .tc 32 [0]
  reduces_S512x512_S512 : S512x512.Reduces [1] S512
  reduces_S512x512_S512_2 : S512x512.Reduces [0] S512
  reduces_S1x512_S1 : S1x512.Reduces [1] S1
  shapeCasts_S1_S1x1 : S1.ShapeCasts S1x1
  inpos_S1x1_p0_0 : ∀ a, (![0, 0] : Fin 2 → Nat) a < S1x1.size a
  h_S1 : 0 < S1.numel
  dot_S512x128_S512x128_S512x512_1_1_0_0_n_n_wf : DotDims.WF S512x128 S512x128 S512x512 [1] [1] [0] [0] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S8x512x128.size a
  hwx0_0 : ∀ i : grid0.Coords, EltTy.bits .f32 = 32 ∨ (Rect.block (s := S8x512x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S8x512x128.size a
  hwx0_1 : ∀ i : grid0.Coords, EltTy.bits .f32 = 32 ∨ (Rect.block (s := S8x512x128) S1x512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev spec0_0 : Pipeline.WinSpec sig grid0.rank :=
  Pipeline.WinSpec.ofSpec (Memref.whole main_arg0) S1x512x128.size reads0_0 false false 2 stage0_0 sem0_0 nbuf0_0 hstage0_0

abbrev spec0_1 : Pipeline.WinSpec sig grid0.rank :=
  Pipeline.WinSpec.ofSpec (Memref.whole main_arg3) S1x512x128.size reads0_1 false false 2 stage0_1 sem0_1 nbuf0_1 hstage0_1

abbrev spec0_2 : Pipeline.WinSpec sig grid0.rank :=
  Pipeline.WinSpec.ofSpec (Memref.whole main_v0) S8.size reads0_2 true true 1 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S8x512x128 : Shape := ⟨3, ![8, 512, 128]⟩
abbrev S8x512x512 : Shape := ⟨3, ![8, 512, 512]⟩
abbrev S8 : Shape := ⟨1, ![8]⟩
abbrev S8x1x512x128 : Shape := ⟨4, ![8, 1, 512, 128]⟩
abbrev S8x512x1x128 : Shape := ⟨4, ![8, 512, 1, 128]⟩
abbrev S8x512x512x128 : Shape := ⟨4, ![8, 512, 512, 128]⟩
abbrev S_ : Shape := ⟨0, ![]⟩
abbrev S512 : Shape := ⟨1, ![512]⟩
abbrev S1x1x512 : Shape := ⟨3, ![1, 1, 512]⟩
abbrev S8x1x1 : Shape := ⟨3, ![8, 1, 1]⟩
abbrev S8x1x512 : Shape := ⟨3, ![8, 1, 512]⟩
abbrev S1x512x1 : Shape := ⟨3, ![1, 512, 1]⟩
abbrev S8x512x1 : Shape := ⟨3, ![8, 512, 1]⟩
abbrev S8x512 : Shape := ⟨2, ![8, 512]⟩

abbrev nBuf : Space → Nat
  | .hbm => 55
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S8x512x512, .f32⟩
  | .hbm, ⟨2, _⟩ => ⟨S8, .i32⟩
  | .hbm, ⟨3, _⟩ => ⟨S8x512x128, .f32⟩
  | .hbm, ⟨4, _⟩ => ⟨S8x512x512, .f32⟩
  | .hbm, ⟨5, _⟩ => ⟨S8, .i32⟩
  | .hbm, ⟨6, _⟩ => ⟨S8x1x512x128, .f32⟩
  | .hbm, ⟨7, _⟩ => ⟨S8x512x1x128, .f32⟩
  | .hbm, ⟨8, _⟩ => ⟨S8x512x512x128, .f32⟩
  | .hbm, ⟨9, _⟩ => ⟨S8x512x512x128, .f32⟩
  | .hbm, ⟨10, _⟩ => ⟨S8x512x512x128, .f32⟩
  | .hbm, ⟨11, _⟩ => ⟨S8x512x512x128, .f32⟩
  | .hbm, ⟨12, _⟩ => ⟨S_, .f32⟩
  | .hbm, ⟨13, _⟩ => ⟨S8x512x512, .f32⟩
  | .hbm, ⟨14, _⟩ => ⟨S8x512x512, .f32⟩
  | .hbm, ⟨15, _⟩ => ⟨S512, .i32⟩
  | .hbm, ⟨16, _⟩ => ⟨S1x1x512, .i32⟩
  | .hbm, ⟨17, _⟩ => ⟨S8x1x1, .i32⟩
  | .hbm, ⟨18, _⟩ => ⟨S8x1x512, .i32⟩
  | .hbm, ⟨19, _⟩ => ⟨S8x1x512, .i32⟩
  | .hbm, ⟨20, _⟩ => ⟨S8x1x512, .i1⟩
  | .hbm, ⟨21, _⟩ => ⟨S512, .i32⟩
  | .hbm, ⟨22, _⟩ => ⟨S1x512x1, .i32⟩
  | .hbm, ⟨23, _⟩ => ⟨S8x1x1, .i32⟩
  | .hbm, ⟨24, _⟩ => ⟨S8x512x1, .i32⟩
  | .hbm, ⟨25, _⟩ => ⟨S8x512x1, .i32⟩
  | .hbm, ⟨26, _⟩ => ⟨S8x512x1, .i1⟩
  | .hbm, ⟨27, _⟩ => ⟨S8x512x512, .i1⟩
  | .hbm, ⟨28, _⟩ => ⟨S8x512x512, .i1⟩
  | .hbm, ⟨29, _⟩ => ⟨S8x512x512, .i1⟩
  | .hbm, ⟨30, _⟩ => ⟨S_, .f32⟩
  | .hbm, ⟨31, _⟩ => ⟨S_, .f32⟩
  | .hbm, ⟨32, _⟩ => ⟨S8x512x512, .f32⟩
  | .hbm, ⟨33, _⟩ => ⟨S8x512x512, .f32⟩
  | .hbm, ⟨34, _⟩ => ⟨S_, .f32⟩
  | .hbm, ⟨35, _⟩ => ⟨S8x512, .f32⟩
  | .hbm, ⟨36, _⟩ => ⟨S_, .f32⟩
  | .hbm, ⟨37, _⟩ => ⟨S8x512, .f32⟩
  | .hbm, ⟨38, _⟩ => ⟨S_, .i1⟩
  | .hbm, ⟨39, _⟩ => ⟨S8x512, .i1⟩
  | .hbm, ⟨40, _⟩ => ⟨S_, .f32⟩
  | .hbm, ⟨41, _⟩ => ⟨S_, .f32⟩
  | .hbm, ⟨42, _⟩ => ⟨S8x512, .f32⟩
  | .hbm, ⟨43, _⟩ => ⟨S8x512, .f32⟩
  | .hbm, ⟨44, _⟩ => ⟨S_, .i1⟩
  | .hbm, ⟨45, _⟩ => ⟨S8x512, .i1⟩
  | .hbm, ⟨46, _⟩ => ⟨S_, .f32⟩
  | .hbm, ⟨47, _⟩ => ⟨S_, .f32⟩
  | .hbm, ⟨48, _⟩ => ⟨S8x512, .f32⟩
  | .hbm, ⟨49, _⟩ => ⟨S8x512, .f32⟩
  | .hbm, ⟨50, _⟩ => ⟨S_, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_cst_5 : Ref sig .tc := ⟨.hbm, 46, rfl⟩
abbrev main_call2_v0 : Ref sig .tc := ⟨.hbm, 47, rfl⟩
abbrev main_call2_v1 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  bcast_S8x512x128_S8x1x512x128_0_2_3 : S8x512x128.BroadcastsInDim S8x1x512x128 (![0, 2, 3] : Fin 3 → Fin S8x1x512x128.rank)
  bcast_S8x512x128_S8x512x1x128_0_1_3 : S8x512x128.BroadcastsInDim S8x512x1x128 (![0, 1, 3] : Fin 3 → Fin S8x512x1x128.rank)
  bcast_S8x1x512x128_S8x512x512x128_0_1_2_3 : S8x1x512x128.BroadcastsInDim S8x512x512x128 (![0, 1, 2, 3] : Fin 4 → Fin S8x512x512x128.rank)
  bcast_S8x512x1x128_S8x512x512x128_0_1_2_3 : S8x512x1x128.BroadcastsInDim S8x512x512x128 (![0, 1, 2, 3] : Fin 4 → Fin S8x512x512x128.rank)
  reducesTo_S8x512x512x128_S8x512x512_d3 : S8x512x512x128.ReducesTo [3] S8x512x512
  h_S_ : 0 < S_.numel
  bcast_S512_S1x1x512_2 : S512.BroadcastsInDim S1x1x512 (![2] : Fin 1 → Fin S1x1x512.rank)
  bcast_S8_S8x1x1_0 : S8.BroadcastsInDim S8x1x1 (![0] : Fin 1 → Fin S8x1x1.rank)
  bcast_S1x1x512_S8x1x512_0_1_2 : S1x1x512.BroadcastsInDim S8x1x512 (![0, 1, 2] : Fin 3 → Fin S8x1x512.rank)
  bcast_S8x1x1_S8x1x512_0_1_2 : S8x1x1.BroadcastsInDim S8x1x512 (![0, 1, 2] : Fin 3 → Fin S8x1x512.rank)
  bcast_S512_S1x512x1_1 : S512.BroadcastsInDim S1x512x1 (![1] : Fin 1 → Fin S1x512x1.rank)
  bcast_S1x512x1_S8x512x1_0_1_2 : S1x512x1.BroadcastsInDim S8x512x1 (![0, 1, 2] : Fin 3 → Fin S8x512x1.rank)
  bcast_S8x1x1_S8x512x1_0_1_2 : S8x1x1.BroadcastsInDim S8x512x1 (![0, 1, 2] : Fin 3 → Fin S8x512x1.rank)
  bcast_S8x1x512_S8x512x512_0_1_2 : S8x1x512.BroadcastsInDim S8x512x512 (![0, 1, 2] : Fin 3 → Fin S8x512x512.rank)
  bcast_S8x512x1_S8x512x512_0_1_2 : S8x512x1.BroadcastsInDim S8x512x512 (![0, 1, 2] : Fin 3 → Fin S8x512x512.rank)
  bcast_S_S8x512x512 : S_.BroadcastsInDim S8x512x512 (![] : Fin 0 → Fin S8x512x512.rank)
  reducesTo_S8x512x512_S8x512_d2 : S8x512x512.ReducesTo [2] S8x512
  reducesTo_S8x512x512_S8x512_d1 : S8x512x512.ReducesTo [1] S8x512
  bcast_S_S8x512 : S_.BroadcastsInDim S8x512 (![] : Fin 0 → Fin S8x512.rank)
  reducesTo_S8x512_S8_d1 : S8x512.ReducesTo [1] S8

variable [Facts₀]

class Facts : Prop extends Facts₀ where

variable [Facts]
-- ==== Proof.KernelKit.lean ====
/-
  The launch side of the kernel's one pallas_call, for any float instance: the schedule of its three windows over the
  grid of 8 points (both inputs fetched at every point, the output block — the whole 8-word result, at block index 0
  at every point — written back at the last point only), the arrays as the region finds them, the two prefetched
  size tables read off the launch memory, and each input window's block at a point.  The tables are read by the
  body only, never by an index map, so the pipeline's side condition on them is trivially true.
-/
import proofs.«431092_j45397804319098_1_alg».proof.Proof.Gen.Kernel.Launch
import proofs.«431092_j45397804319098_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The first point set's window is fetched at every point (its block index is the point). -/
theorem fetch0_0 (a : (pcfg0 (F := F)).Adm) : ∀ t : Fin (cfg0 a).N, ((cfg0 a).win 0).fetch t = true :=
  (by decide +kernel : ∀ t : Fin grid0.N, Pipeline.Window.fetchOf grid0 false cc0_transform_0 t = true)
/-- So is the second point set's. -/
theorem fetch0_1 (a : (pcfg0 (F := F)).Adm) : ∀ t : Fin (cfg0 a).N, ((cfg0 a).win 1).fetch t = true :=
  (by decide +kernel : ∀ t : Fin grid0.N, Pipeline.Window.fetchOf grid0 false cc0_transform_1 t = true)
/-- The result's block index never moves: it is written back at the last point only. -/
theorem flush0_2 (a : (pcfg0 (F := F)).Adm) : ∀ t : Fin (cfg0 a).N, ((cfg0 a).win 2).flush t = true ↔ t.val % 8 = 7 :=
  (by decide +kernel : ∀ t : Fin grid0.N, Pipeline.Window.flushOf grid0 true cc0_transform_2 t = true ↔ t.val % 8 = 7)

/-- The kernel body at point `t`, on what the pipeline calls it with. -/
abbrev bodyAt0 (a : (pcfg0 (F := F)).Adm) (t : Fin (cfg0 a).N) : Prog (TpuEff nD τ sig (Elt F) Λ₀ .tc) PUnit :=
  cc0__hausdorff_kernel (grid0.coords t) (Memref.whole main_arg2) (Memref.isWhole_whole _) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! ## @main up to the region -/

/-- Core `c`'s buffers when the region is entered: as launched (@main is the region alone). -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-! ## The size tables -/

/-- The two size tables' contents when the region is entered (there is one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- No index map reads a table: every contents of the tables is admissible. -/
abbrev adm : (pcfg0 (F := F)).Adm := ⟨tbl m, trivial⟩
abbrev cfgM : Pipeline.Cfg sig Λ₀ := cfg0 (adm m)

abbrev tbM0_0 : Memref sig .tc .smem S8 .i32 := Memref.whole main_arg2
abbrev htbM0_0 : tbM0_0.IsWhole := Memref.isWhole_whole _
abbrev tbM0_1 : Memref sig .tc .smem S8 .i32 := Memref.whole main_arg5
abbrev htbM0_1 : tbM0_1.IsWhole := Memref.isWhole_whole _

abbrev TbBuf0 (c : Dev nD) {S : Shape} {e : EltTy} (M : Memref sig .tc .smem S e) : Type := Buf (Elt F) (M.view.loc (c : Thread nD τ))
/-- A table held at half the full share: the body may read its words, nothing may store into it. -/
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Each window's current staging memref at point `t`, and its wholeness. -/
abbrev ms0_0 (t : Fin (cfgM m).N) : Memref sig .tc .vmem S1x512x128 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x512x128 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S8 .f32 := spec0_2.stage ((cfgM m).slots t 2)
abbrev hs0_2 (t : Fin (cfgM m).N) : (ms0_2 m t).IsWhole := hstage0_2 (((cfgM m).slots t 2).cast nbuf0_2)

end Cert.Kernel.Hand

end
-- ==== Proof.KernelRun.lean ====
/-
  The kernel's body at one grid point, run once on whole staging memrefs, for any float instance.

  The body loads the two point-set blocks and the point's two size words, computes one number from them, loads
  (and ignores) the output word at the point's position and stores the number there.  So it leaves both input
  buffers as it found them and the 8-word output buffer as it found it but for ONE word: the store's piece, found by
  running the body, is the unit rectangle at the point's offset holding the computed number.
-/
import proofs.«431092_j45397804319098_1_alg».proof.Proof.KernelKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref (last first), with the proof that on whole
    staging memrefs — the inputs' at their contents, the output's at contents `y`, the two tables held for reading —
    the body runs to the continuation holding the inputs' as they were and the output's buffer at `y` with those
    pieces written. -/
noncomputable def kernelRun0 (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S8 .f32) (harg5 : arg5.IsWhole)
    (x0 : Vec F S1x512x128 .f32) (x1 : Vec F S1x512x128 .f32) (y : Vec F S8 .f32) (xt0 : TbBuf0 (F := F) c tbM0_0) (xt1 : TbBuf0 (F := F) c tbM0_1) :
    { L : List (View.Piece (Elt F) S8 .f32) //
      ∀ (E : Set ℕ) (K : PUnit → sProp 𝕄),
        iprop(owns (c : Thread nD τ) arg3 fullShare x0 ∗ owns (c : Thread nD τ) arg4 fullShare x1 ∗ owns (c : Thread nD τ) arg5 fullShare y ∗ tbPt0 c tbM0_0 xt0 ∗ tbPt0 c tbM0_1 xt1
            ∗ (iprop(owns (c : Thread nD τ) arg3 fullShare x0 ∗ owns (c : Thread nD τ) arg4 fullShare x1 ∗ (arg5.view.loc (c : Thread nD τ) ↦[arg5.view.set]{fullShare} arg5.view.writes (Elt F) (harg5.unread y) L) ∗ tbPt0 c tbM0_0 xt0 ∗ tbPt0 c tbM0_1 xt1) -∗ K ⟨⟩))
          ⊢ wp frame (wpE (defs₀ (F := F)) Variants.none c none) E (cc0__hausdorff_kernel i tbM0_0 htbM0_0 tbM0_1 htbM0_1 arg3 harg3 arg4 harg4 arg5 harg5) K } := by
  refine ⟨?_, fun E K => ?run⟩
  case run =>
    simp only [cc0__hausdorff_kernel_eq_skeleton]; unfold cc0__hausdorff_kernel_skel
    simp only [k0_part1_eq_skeleton]
    unfold owns
    iintro ⟨⟨%f0, %hf0, H0⟩, ⟨%f1, %hf1, H1⟩, ⟨%f2, %hf2, H2⟩, HT0, HT1, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]; · iexact H2
    isplitl [HT0]; · iexact HT0
    iexact HT1

end Cert.Kernel.Hand

end
-- ==== Proof.KernelFrame.lean ====
/-
  The pipeline's proof data and the body obligation, for any float instance.

  Per grid point the body leaves the 8-word output buffer as it found it but for the point's own word, where it puts
  the number it computed from the point's two blocks and two size words.  The buffer is handed on from point to point
  (its block index never moves) and is written back after the last point only, so the data about it is RELATIONAL:
  what the body leaves is what it was handed with one word replaced.  The two input buffers are left as found.
-/
import proofs.«431092_j45397804319098_1_alg».proof.Proof.KernelRun
import Idealize.ShloMosaic.Lib.WritesUnit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## What the body stores -/

/-- The size word the body loads from a table at the point's position. -/
def wordAt (c : Dev nD) (i : grid0.Coords) {M : Memref sig .tc .smem S8 .i32} (xt : TbBuf0 (F := F) c M) : Elt F .i32 :=
  View.readAt (Elt F) M.view (Rect.unit (s := S8) (k0_off1 i) S1.size (k0_off1_inb i)).toLoadRect xt (Shape.Idx.first (numel1_S1.symm ▸ Nat.one_pos))

/-- The one-word vector the body stores at a point: its arithmetic on the two blocks and the two size words. -/
def stored (c : Dev nD) (i : grid0.Coords) (x0 x1 : Vec F S1x512x128 .f32) (xt0 : TbBuf0 (F := F) c tbM0_0) (xt1 : TbBuf0 (F := F) c tbM0_1) : FVec F S1 .f32 :=
  k0_pay1 (k0_pay2 (wordAt c i xt0) (wordAt c i xt1)) (k0_pay4 x0 x1 (wordAt c i xt0) (wordAt c i xt1))
    (k0_pay5 x0 x1 (wordAt c i xt0) (wordAt c i xt1)) (k0_pay6 (wordAt c i xt0) (wordAt c i xt1))

theorem hz3 : (![0, 0, 0] : Fin S1x512x128.rank → Nat) = fun _ => 0 := by
  funext a; match a with | ⟨0, _⟩ => rfl | ⟨1, _⟩ => rfl | ⟨2, _⟩ => rfl

/-- The body's one store: the unit rectangle at the point's offset, holding `stored`. -/
theorem kernelRun0_pieces (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S8 .f32) (harg5 : arg5.IsWhole)
    (x0 : Vec F S1x512x128 .f32) (x1 : Vec F S1x512x128 .f32) (y : Vec F S8 .f32) (xt0 : TbBuf0 (F := F) c tbM0_0) (xt1 : TbBuf0 (F := F) c tbM0_1) :
    (kernelRun0 c i arg3 harg3 arg4 harg4 arg5 harg5 x0 x1 y xt0 xt1).1
      = [(⟨Rect.unit (s := S8) (k0_off1 i) S1.size (k0_off1_inb i), stored c i x0 x1 xt0 xt1⟩ : View.Piece (Elt F) S8 .f32)] := by
  unfold kernelRun0 stored wordAt
  dsimp only
  sl_unfold_words
  simp only [View.readAt_eq_ld, harg3.read_unread, harg4.read_unread, View.ld_unit_zero (S := S1x512x128) hz3]

/-! ## One word of an 8-word block replaced -/

/-- The block `Y` with the word at position `k` replaced by `v`. -/
def put8 (k : ℕ) (Y : Vec F S8 .f32) (v : Elt F .f32) : Vec F S8 .f32 := fun y => if (y 0).val = k then v else Y y

/-- The one index of a one-word vector. -/
abbrev i1 : S1.Idx := Shape.Idx.first (numel1_S1.symm ▸ Nat.one_pos)

theorem s1_idx_eq (p q : S1.Idx) : p = q := funext fun a => by
  match a with
  | ⟨0, _⟩ => exact Fin.ext ((Nat.lt_one_iff.mp (show (p 0).val < 1 from (p 0).isLt)).trans (Nat.lt_one_iff.mp (show (q 0).val < 1 from (q 0).isLt)).symm)

/-- Reading back what the one store left over contents `Y`: `Y` with the point's word replaced. -/
theorem read_store (arg5 : Memref sig .tc .vmem S8 .f32) (harg5 : arg5.IsWhole) (i : grid0.Coords) (Y : Vec F S8 .f32) (w : FVec F S1 .f32) :
    arg5.view.read (Elt F) (arg5.view.writes (Elt F) (harg5.unread Y) [(⟨Rect.unit (s := S8) (k0_off1 i) S1.size (k0_off1_inb i), w⟩ : View.Piece (Elt F) S8 .f32)])
      = put8 (i 0).val Y (w i1) := by
  funext y
  rw [View.read_writes_cons_unit arg5.view (harg5.unread Y) (k0_off1_inb i) w [] y (k0_off1_eq i)]
  unfold put8
  by_cases h : (y 0).val = (i 0).val
  · have hall : ∀ a, (![(i 0).val] : Fin S8.rank → ℕ) a ≤ (y a).val ∧ (y a).val < (![(i 0).val] : Fin S8.rank → ℕ) a + S1.size a := fun a => by
      match a with
      | ⟨0, _⟩ => exact ⟨by show (i 0).val ≤ (y 0).val; omega, by show (y 0).val < (i 0).val + 1; omega⟩
    rw [if_pos h, dif_pos hall]
    exact congrArg w (s1_idx_eq _ _)
  · have hnall : ¬ ∀ a, (![(i 0).val] : Fin S8.rank → ℕ) a ≤ (y a).val ∧ (y a).val < (![(i 0).val] : Fin S8.rank → ℕ) a + S1.size a := fun hall => by
      have := hall (0 : Fin S8.rank)
      have h1 : (i 0).val ≤ (y 0).val := this.1
      have h2 : (y 0).val < (i 0).val + 1 := this.2
      omega
    rw [if_neg h, dif_neg hnall, View.writes_nil, harg5.read_unread]

/-! ## The proof data -/

variable (m : (ℓ : Loc nD τ sig) → Buf (Elt F) ℓ) (ρ : Dev nD → PrngReg)

/-- The number point `t` contributes on core `c`: the body's arithmetic on the point's two blocks and the two size tables
    as the region finds them. -/
def dval (c : Dev nD) (t : Fin (cfgM m).N) : Elt F .f32 :=
  stored c (grid0.coords t) (iblk m c 0 t) (iblk m c 1 t) (tbl m 0) (tbl m 1) i1

/-- The proof data of the pipeline on core `c`: the arrays as the region finds them; the input buffers left as found;
    the output buffer left as found but for the point's word, which takes the point's number; the class's invariant
    and the tables' halves; nothing owed; full shares. -/
def rdat (c : Dev nD) : RDat τ (Elt F) Unit ℕ (UR sig nD τ) ℕ (cfgM m) c where
  A w := V m c (Pipeline.arrRef spec0 w)
  after w t Y X := match w, Y, X with
    | ⟨0, _⟩, Y, X => X = Y
    | ⟨1, _⟩, Y, X => X = Y
    | ⟨2, _⟩, Y, X => X = put8 t.val Y (dval m c t)
  Φ _ := iprop(Pipeline.ΦA spec0 c ∗ Pipeline.ΦT pre0 (tbl m) c)
  q _ := fullShare
  owed _ := 0

theorem A_eq (c : Dev nD) (w : Fin (cfgM m).W) : (rdat m c).A w = V m c (Pipeline.arrRef spec0 w) := by
  dsimp only [rdat]

/-- A fetched input buffer holds its block. -/
theorem finds_in0 (c : Dev nD) (t : Fin (cfgM m).N) (Y) (h : (rdat m c).Finds 0 t Y) : Y = iblk m c 0 t := by
  obtain ⟨d, rfl⟩ := ((rdat m c).finds_of_fetch (fetch0_0 (adm m) t) Y).mp h
  unfold RDat.fetched RDat.blockOf iblk
  rw [A_eq]; try rfl
theorem finds_in1 (c : Dev nD) (t : Fin (cfgM m).N) (Y) (h : (rdat m c).Finds 1 t Y) : Y = iblk m c 1 t := by
  obtain ⟨d, rfl⟩ := ((rdat m c).finds_of_fetch (fetch0_1 (adm m) t) Y).mp h
  unfold RDat.fetched RDat.blockOf iblk
  rw [A_eq]; try rfl

/-- The grid is one axis: a point's coordinate is the point. -/
theorem coords_val : ∀ t : Fin grid0.N, ((grid0.coords t) 0).val = t.val := by decide +kernel

end Cert.Kernel.Hand

end
-- ==== Proof.KernelBody.lean ====
/-
  The body obligation and the frame run, for any float instance: at every grid point, from the invariant and the
  three current staging buffers at whatever they may hold there, the body runs to the invariant and the buffers at
  contents in the stated relation to what they held — the inputs unchanged, the output with the point's word replaced
  by the point's number.  The library's launch theorem then runs @main.
-/
import proofs.«431092_j45397804319098_1_alg».proof.Proof.KernelFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relations of the proof data, window by window. -/
theorem after_in0 (c : Dev nD) (t : Fin (cfgM m).N) (Y X) : (rdat m c).after 0 t Y X ↔ X = Y := Iff.rfl
theorem after_in1 (c : Dev nD) (t : Fin (cfgM m).N) (Y X) : (rdat m c).after 1 t Y X ↔ X = Y := Iff.rfl
theorem after_out (c : Dev nD) (t : Fin (cfgM m).N) (Y X) : (rdat m c).after 2 t Y X ↔ X = put8 t.val Y (dval m c t) := Iff.rfl

/-- What the output buffer reads after the body's store over contents `Y`: `Y` with the point's word replaced by the
    number computed from the input buffers' contents. -/
theorem read_after_gen (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S8 .f32) (harg5 : arg5.IsWhole)
    (x0 x1 : Vec F S1x512x128 .f32) (Y : Vec F S8 .f32) (xt0 : TbBuf0 (F := F) c tbM0_0) (xt1 : TbBuf0 (F := F) c tbM0_1) :
    arg5.view.read (Elt F) (arg5.view.writes (Elt F) (harg5.unread Y) (kernelRun0 c i arg3 harg3 arg4 harg4 arg5 harg5 x0 x1 Y xt0 xt1).1)
      = put8 (i 0).val Y (stored c i x0 x1 xt0 xt1 i1) := by
  rw [kernelRun0_pieces, read_store]

theorem read_after (c : Dev nD) (t : Fin (cfgM m).N) (x0 x1 : Vec F S1x512x128 .f32) (Y : Vec F S8 .f32) :
    (ms0_2 m t).view.read (Elt F) ((ms0_2 m t).view.writes (Elt F) ((hs0_2 m t).unread Y)
        (kernelRun0 c (grid0.coords t) (ms0_0 m t) (hs0_0 m t) (ms0_1 m t) (hs0_1 m t) (ms0_2 m t) (hs0_2 m t) x0 x1 Y (tbl m 0) (tbl m 1)).1)
      = put8 t.val Y (stored c (grid0.coords t) x0 x1 (tbl m 0) (tbl m 1) i1) :=
  (read_after_gen c (grid0.coords t) (ms0_0 m t) (hs0_0 m t) (ms0_1 m t) (hs0_1 m t) (ms0_2 m t) (hs0_2 m t) x0 x1 Y (tbl m 0) (tbl m 1)).trans
    (congrArg (fun k => put8 k Y (stored c (grid0.coords t) x0 x1 (tbl m 0) (tbl m 1) i1)) (coords_val t))

/-- When the input buffers hold their blocks that number is the point's. -/
theorem stored_eq_dval (c : Dev nD) (t : Fin (cfgM m).N) (x0 x1 : Vec F S1x512x128 .f32)
    (e0 : x0 = iblk m c 0 t) (e1 : x1 = iblk m c 1 t) :
    stored c (grid0.coords t) x0 x1 (tbl m 0) (tbl m 1) i1 = dval m c t := by
  subst e0; subst e1; rfl

/-- The body at any point. -/
theorem sound_body (c : Dev nD) (t : Fin (cfgM m).N) (Y : (w : Fin (cfgM m).W) → ((cfgM m).win w).block.Idx → Elt F ((cfgM m).win w).elt)
    (hY : ∀ w, (rdat m c).Finds w t (Y w)) :
    iprop((rdat m c).Φ t.castSucc ∗ (rdat m c).owesAt () t.castSucc
        ∗ owns (c : Thread nD τ) (ms0_0 m t) fullShare (Y 0) ∗ owns (c : Thread nD τ) (ms0_1 m t) fullShare (Y 1) ∗ owns (c : Thread nD τ) (ms0_2 m t) fullShare (Y 2))
      ⊢ wp frame (wpE (defs₀ (F := F)) Variants.none c none) Set.univ (bodyAt0 (adm m) t) (fun _ =>
          iprop((rdat m c).Φ t.succ ∗ (rdat m c).owesAt () t.succ
            ∗ (∃ X, ⌜(rdat m c).after 0 t (Y 0) X⌝ ∗ owns (c : Thread nD τ) (ms0_0 m t) fullShare X)
            ∗ (∃ X, ⌜(rdat m c).after 1 t (Y 1) X⌝ ∗ owns (c : Thread nD τ) (ms0_1 m t) fullShare X)
            ∗ (∃ X, ⌜(rdat m c).after 2 t (Y 2) X⌝ ∗ owns (c : Thread nD τ) (ms0_2 m t) fullShare X))) := by
  have e0 := finds_in0 m c t (Y 0) (hY 0)
  have e1 := finds_in1 m c t (Y 1) (hY 1)
  have hX := (read_after m c t (Y 0) (Y 1) (Y 2)).trans (congrArg (put8 t.val (Y 2)) (stored_eq_dval m c t (Y 0) (Y 1) e0 e1))
  unfold bodyAt0
  rw [show (rdat m c).Φ t.succ = (rdat m c).Φ t.castSucc from rfl,
    show (rdat m c).owesAt () t.succ = (rdat m c).owesAt () t.castSucc from rfl]
  rw [show (rdat m c).Φ t.castSucc = iprop(Pipeline.ΦA spec0 c ∗ Pipeline.ΦT pre0 (tbl m) c) from rfl, PhiT0_eq]
  iintro ⟨⟨HΦ, ⟨HT0, HT1⟩⟩, Ho, H0, H1, H2⟩
  iapply ((kernelRun0 c (grid0.coords t) (ms0_0 m t) (hs0_0 m t) (ms0_1 m t) (hs0_1 m t) (ms0_2 m t) (hs0_2 m t) (Y 0) (Y 1) (Y 2) (tbl m 0) (tbl m 1)).2 Set.univ _)
  isplitl [H0]; · iexact H0
  isplitl [H1]; · iexact H1
  isplitl [H2]; · iexact H2
  isplitl [HT0]; · iexact HT0
  isplitl [HT1]; · iexact HT1
  iintro ⟨H0, H1, H2, HT0, HT1⟩
  isplitl [HΦ HT0 HT1]
  · isplitl [HΦ]
    · iexact HΦ
    isplitl [HT0]; · iexact HT0
    iexact HT1
  isplitl [Ho]; · iexact Ho
  isplitl [H0]
  · iexists (Y 0); isplitr
    · ipureintro; exact (after_in0 m c t (Y 0) (Y 0)).mpr rfl
    · iexact H0
  isplitl [H1]
  · iexists (Y 1); isplitr
    · ipureintro; exact (after_in1 m c t (Y 1) (Y 1)).mpr rfl
    · iexact H1
  iexists _; isplitr; swap
  · unfold owns; iexists _; isplitr; swap
    · iexact H2
    · ipureintro; rfl
  · ipureintro; exact (after_out m c t (Y 2) _).mpr hX

/-- The library's body obligation, at every point. -/
theorem body_obligation (c : Dev nD) : (rdat (F := F) m c).BodyObligation (defs₀ (F := F)) Variants.none () Set.univ := fun t Y hY => by
  rw [bigSep_W0, bigSep_W0]
  exact sound_body m c t Y hY

set_option backward.isDefEq.respectTransparency.types false in
/-- The frame run: every weakly fair execution of @main terminates; every array holds contents it may hold after the
    write-backs, every other unscoped buffer its region-entry contents. -/
theorem run_main : θ_run defs (onTc (τ := τ) (main (F := F))) (s₀ m ρ) (Pipeline.RDat.FramePost ((Pipeline.pin pcfgs fun _ => adm m) 0) (fun c => rdat m c) (V m)) :=
  Pipeline.RDat.θ_run_frameP pcfgs (fun _ => adm m) (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hpf := V_pre m) (hΦ := fun _ _ => rfl)

end Cert.Kernel.Hand

end
-- ==== Proof.KernelValue.lean ====
/-
  The result array after the run, for any float instance: word t of the 8-word result is the number grid point t
  computed.  The output buffer is handed from point to point and each point replaces its own word, so after point t
  the words 0..t hold their points' numbers; the one write-back, after the last point, copies the whole buffer to the
  result array (the block is the whole array).  The six argument arrays end unchanged.
-/
import proofs.«431092_j45397804319098_1_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

variable (m : (ℓ : Loc nD τ sig) → Buf (Elt F) ℓ) (ρ : Dev nD → PrngReg)

theorem cfgN : (cfgM m).N = 8 := N_0

/-- A position of the 8-word result as a grid point. -/
def ptOf (y : S8.Idx) : Fin (cfgM m).N := ⟨(y 0).val, lt_of_lt_of_eq (show (y 0).val < 8 from (y 0).isLt) (cfgN m).symm⟩

/-- The result array after the run: word k holds point k's number. -/
def outArr (c : Dev nD) : Vec F S8 .f32 := fun y => dval m c (ptOf m y)

/-- The output window is never fetched. -/
theorem fetch0_2 (t : Fin (cfgM m).N) : ((cfgM m).win 2).fetch t = false := ((cfgM m).win 2).fetch_out rfl t

/-- Before the last point the output block is not written back; -/
theorem noflush (n : ℕ) (hn : n < (cfgM m).N) (h6 : n < 7) : ((cfgM m).win 2).flush ⟨n, hn⟩ = false := by
  cases h : ((cfgM m).win 2).flush ⟨n, hn⟩ with
  | false => rfl
  | true =>
    have := (flush0_2 (adm m) ⟨n, hn⟩).mp h
    have h7 : n % 8 = 7 := this
    omega
/-- at the last point it is. -/
theorem lastflush (hn : 7 < (cfgM m).N) : ((cfgM m).win 2).flush ⟨7, hn⟩ = true := (flush0_2 (adm m) ⟨7, hn⟩).mpr rfl

/-- After point t the output buffer's words 0..t hold their points' numbers. -/
theorem leaves_out (c : Dev nD) : ∀ (n : ℕ) (t : Fin (cfgM m).N), t.val = n → ∀ X, (rdat m c).Leaves 2 t X →
    ∀ y : S8.Idx, (y 0).val ≤ t.val → (X : Vec F S8 .f32) y = outArr m c y := by
  intro n
  induction n using Nat.strong_induction_on with
  | _ n ih =>
    intro t ht X hL y hy
    have h8 := cfgN m
    obtain ⟨Y, hF, hA⟩ := hL
    have hA' := (after_out m c t Y X).mp hA
    subst hA'
    unfold put8
    by_cases hyt : (y 0).val = t.val
    · refine (if_pos hyt).trans ?_
      unfold outArr; exact congrArg (dval m c) (Fin.ext hyt.symm)
    · refine (if_neg hyt).trans ?_
      have ht0 : t.val ≠ 0 := by omega
      have hlt : t.val - 1 < (cfgM m).N := Nat.lt_of_le_of_lt (Nat.sub_le _ _) t.isLt
      rcases ((rdat m c).finds_of_pos (fetch0_2 m t) ht0 Y).mp hF with hfl | hL'
      · have hno := noflush m (t.val - 1) hlt (by have := t.isLt; omega)
        rw [hno] at hfl; exact absurd hfl Bool.false_ne_true
      · exact ih (t.val - 1) (by omega) ⟨t.val - 1, hlt⟩ rfl Y hL' y (by show (y 0).val ≤ t.val - 1; omega)

/-- Before the last point's write-back the result array is as the region found it. -/
theorem arrAt_early (c : Dev nD) : ∀ n, n ≤ 7 → ∀ G, (rdat m c).ArrAt 2 n G → G = (rdat m c).A 2
  | 0, _, G, h => h
  | n + 1, hn, G, h => by
    have h8 := cfgN m
    have hlt : n < (cfgM m).N := by omega
    rw [RDat.ArrAt] at h
    dsimp only at h
    rw [dif_pos hlt, noflush m n hlt (by omega), if_neg Bool.false_ne_true] at h
    exact arrAt_early c n (by omega) G h

/-- The output window's block index is 0 at every point: its block is the whole array, in place. -/
theorem blk_emb (t : Fin (cfgM m).N) (y : S8.Idx) : (((cfgM m).win 2).blk t).view.emb y = y := by
  funext a; apply Fin.ext
  match a with
  | ⟨0, _⟩ => show ((cfgM m).win 2).index t (0 : Fin 1) * 8 + 1 * (y 0).val = (y 0).val; have : ((cfgM m).win 2).index t (0 : Fin 1) = 0 := rfl; omega

/-- After the last point's write-back the result array holds every point's number. -/
theorem arrAt_final (c : Dev nD) (G) (h : (rdat m c).ArrAt 2 (cfgM m).N G) : G = outArr m c := by
  have h8 := cfgN m
  have h' : (rdat m c).ArrAt 2 (7 + 1) G := h
  rw [RDat.ArrAt] at h'
  dsimp only at h'
  have hlt : 7 < (cfgM m).N := by omega
  rw [dif_pos hlt, lastflush m hlt, if_pos rfl] at h'
  obtain ⟨G₀, X, -, hL, rfl⟩ := h'
  have key : ∀ i : S8.Idx, View.write (Elt F) (((cfgM m).win 2).blk ⟨7, hlt⟩).view G₀
      (((cfgM m).win 2).cut ((cfgM m).grid.coords ⟨7, hlt⟩) X) Finset.univ i = outArr m c i := fun i => by
    have hi : (i 0).val ≤ 7 := by have : (i 0).val < 8 := (i 0).isLt; omega
    have e := View.write_emb_of_mem (v := (((cfgM m).win 2).blk ⟨7, hlt⟩).view) G₀
      (((cfgM m).win 2).cut ((cfgM m).grid.coords ⟨7, hlt⟩) X) (M := Finset.univ) (x := i) (Finset.mem_univ _)
    refine ((congrArg (View.write (Elt F) (((cfgM m).win 2).blk ⟨7, hlt⟩).view G₀
      (((cfgM m).win 2).cut ((cfgM m).grid.coords ⟨7, hlt⟩) X) Finset.univ) (blk_emb m ⟨7, hlt⟩ i)).symm.trans e).trans ?_
    exact leaves_out m c 7 ⟨7, hlt⟩ rfl X hL i hi
  exact funext key

/-- THE VALUE RUN: every weakly fair execution of @main terminates, the result array holding every point's number
    and the six argument arrays unchanged. -/
theorem run_value : θ_run defs (onTc (τ := τ) (main (F := F))) ⟨m, fun _ => 0, ρ⟩ (fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨arrAt_final m c _ ((h c).1 2),
      (Pipeline.RDat.FramePost.arr_in h c 0 rfl).trans (A_eq m c 0),
      (h c).2 main_arg1 (by decide : main_arg1 ∈ Pipeline.restRefs sig spec0),
      (h c).2 main_arg2 (by decide : main_arg2 ∈ Pipeline.restRefs sig spec0),
      (Pipeline.RDat.FramePost.arr_in h c 1 rfl).trans (A_eq m c 1),
      (h c).2 main_arg4 (by decide : main_arg4 ∈ Pipeline.restRefs sig spec0),
      (h c).2 main_arg5 (by decide : main_arg5 ∈ Pipeline.restRefs sig spec0)⟩) (run_main m ρ)

/-- THE FRAME: every weakly fair execution of @main terminates with the six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_value m ρ)

end Cert.Kernel.Hand

end
-- ==== Proof.IdealKit.lean ====
/-
  The launch side of the kernel's one pallas_call, for any float instance: the schedule of its three windows over the
  grid of 8 points (both inputs fetched at every point, the output block — the whole 8-word result, at block index 0
  at every point — written back at the last point only), the arrays as the region finds them, the two prefetched
  size tables read off the launch memory, and each input window's block at a point.  The tables are read by the
  body only, never by an index map, so the pipeline's side condition on them is trivially true.
-/
import proofs.«431092_j45397804319098_1_alg».proof.Proof.Gen.KernelIdeal.Launch
import proofs.«431092_j45397804319098_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The first point set's window is fetched at every point (its block index is the point). -/
theorem fetch0_0 (a : (pcfg0 (F := F)).Adm) : ∀ t : Fin (cfg0 a).N, ((cfg0 a).win 0).fetch t = true :=
  (by decide +kernel : ∀ t : Fin grid0.N, Pipeline.Window.fetchOf grid0 false cc0_transform_0 t = true)
/-- So is the second point set's. -/
theorem fetch0_1 (a : (pcfg0 (F := F)).Adm) : ∀ t : Fin (cfg0 a).N, ((cfg0 a).win 1).fetch t = true :=
  (by decide +kernel : ∀ t : Fin grid0.N, Pipeline.Window.fetchOf grid0 false cc0_transform_1 t = true)
/-- The result's block index never moves: it is written back at the last point only. -/
theorem flush0_2 (a : (pcfg0 (F := F)).Adm) : ∀ t : Fin (cfg0 a).N, ((cfg0 a).win 2).flush t = true ↔ t.val % 8 = 7 :=
  (by decide +kernel : ∀ t : Fin grid0.N, Pipeline.Window.flushOf grid0 true cc0_transform_2 t = true ↔ t.val % 8 = 7)

/-- The kernel body at point `t`, on what the pipeline calls it with. -/
abbrev bodyAt0 (a : (pcfg0 (F := F)).Adm) (t : Fin (cfg0 a).N) : Prog (TpuEff nD τ sig (Elt F) Λ₀ .tc) PUnit :=
  cc0__hausdorff_kernel (grid0.coords t) (Memref.whole main_arg2) (Memref.isWhole_whole _) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! ## @main up to the region -/

/-- Core `c`'s buffers when the region is entered: as launched (@main is the region alone). -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-! ## The size tables -/

/-- The two size tables' contents when the region is entered (there is one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- No index map reads a table: every contents of the tables is admissible. -/
abbrev adm : (pcfg0 (F := F)).Adm := ⟨tbl m, trivial⟩
abbrev cfgM : Pipeline.Cfg sig Λ₀ := cfg0 (adm m)

abbrev tbM0_0 : Memref sig .tc .smem S8 .i32 := Memref.whole main_arg2
abbrev htbM0_0 : tbM0_0.IsWhole := Memref.isWhole_whole _
abbrev tbM0_1 : Memref sig .tc .smem S8 .i32 := Memref.whole main_arg5
abbrev htbM0_1 : tbM0_1.IsWhole := Memref.isWhole_whole _

abbrev TbBuf0 (c : Dev nD) {S : Shape} {e : EltTy} (M : Memref sig .tc .smem S e) : Type := Buf (Elt F) (M.view.loc (c : Thread nD τ))
/-- A table held at half the full share: the body may read its words, nothing may store into it. -/
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Each window's current staging memref at point `t`, and its wholeness. -/
abbrev ms0_0 (t : Fin (cfgM m).N) : Memref sig .tc .vmem S1x512x128 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x512x128 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S8 .f32 := spec0_2.stage ((cfgM m).slots t 2)
abbrev hs0_2 (t : Fin (cfgM m).N) : (ms0_2 m t).IsWhole := hstage0_2 (((cfgM m).slots t 2).cast nbuf0_2)

end Cert.KernelIdeal.Hand

end
-- ==== Proof.IdealRun.lean ====
/-
  The kernel's body at one grid point, run once on whole staging memrefs, for any float instance.

  The body loads the two point-set blocks and the point's two size words, computes one number from them, loads
  (and ignores) the output word at the point's position and stores the number there.  So it leaves both input
  buffers as it found them and the 8-word output buffer as it found it but for ONE word: the store's piece, found by
  running the body, is the unit rectangle at the point's offset holding the computed number.
-/
import proofs.«431092_j45397804319098_1_alg».proof.Proof.IdealKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref (last first), with the proof that on whole
    staging memrefs — the inputs' at their contents, the output's at contents `y`, the two tables held for reading —
    the body runs to the continuation holding the inputs' as they were and the output's buffer at `y` with those
    pieces written. -/
noncomputable def kernelRun0 (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S8 .f32) (harg5 : arg5.IsWhole)
    (x0 : Vec F S1x512x128 .f32) (x1 : Vec F S1x512x128 .f32) (y : Vec F S8 .f32) (xt0 : TbBuf0 (F := F) c tbM0_0) (xt1 : TbBuf0 (F := F) c tbM0_1) :
    { L : List (View.Piece (Elt F) S8 .f32) //
      ∀ (E : Set ℕ) (K : PUnit → sProp 𝕄),
        iprop(owns (c : Thread nD τ) arg3 fullShare x0 ∗ owns (c : Thread nD τ) arg4 fullShare x1 ∗ owns (c : Thread nD τ) arg5 fullShare y ∗ tbPt0 c tbM0_0 xt0 ∗ tbPt0 c tbM0_1 xt1
            ∗ (iprop(owns (c : Thread nD τ) arg3 fullShare x0 ∗ owns (c : Thread nD τ) arg4 fullShare x1 ∗ (arg5.view.loc (c : Thread nD τ) ↦[arg5.view.set]{fullShare} arg5.view.writes (Elt F) (harg5.unread y) L) ∗ tbPt0 c tbM0_0 xt0 ∗ tbPt0 c tbM0_1 xt1) -∗ K ⟨⟩))
          ⊢ wp frame (wpE (defs₀ (F := F)) Variants.none c none) E (cc0__hausdorff_kernel i tbM0_0 htbM0_0 tbM0_1 htbM0_1 arg3 harg3 arg4 harg4 arg5 harg5) K } := by
  refine ⟨?_, fun E K => ?run⟩
  case run =>
    simp only [cc0__hausdorff_kernel_eq_skeleton]; unfold cc0__hausdorff_kernel_skel
    simp only [k0_part1_eq_skeleton]
    unfold owns
    iintro ⟨⟨%f0, %hf0, H0⟩, ⟨%f1, %hf1, H1⟩, ⟨%f2, %hf2, H2⟩, HT0, HT1, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]; · iexact H2
    isplitl [HT0]; · iexact HT0
    iexact HT1

end Cert.KernelIdeal.Hand

end
-- ==== Proof.IdealFrame.lean ====
/-
  The pipeline's proof data and the body obligation, for any float instance.

  Per grid point the body leaves the 8-word output buffer as it found it but for the point's own word, where it puts
  the number it computed from the point's two blocks and two size words.  The buffer is handed on from point to point
  (its block index never moves) and is written back after the last point only, so the data about it is RELATIONAL:
  what the body leaves is what it was handed with one word replaced.  The two input buffers are left as found.
-/
import proofs.«431092_j45397804319098_1_alg».proof.Proof.IdealRun
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## What the body stores -/

/-- The size word the body loads from a table at the point's position. -/
def wordAt (c : Dev nD) (i : grid0.Coords) {M : Memref sig .tc .smem S8 .i32} (xt : TbBuf0 (F := F) c M) : Elt F .i32 :=
  View.readAt (Elt F) M.view (Rect.unit (s := S8) (k0_off1 i) S1.size (k0_off1_inb i)).toLoadRect xt (Shape.Idx.first (numel1_S1.symm ▸ Nat.one_pos))

/-- The one-word vector the body stores at a point: its arithmetic on the two blocks and the two size words. -/
def stored (c : Dev nD) (i : grid0.Coords) (x0 x1 : Vec F S1x512x128 .f32) (xt0 : TbBuf0 (F := F) c tbM0_0) (xt1 : TbBuf0 (F := F) c tbM0_1) : FVec F S1 .f32 :=
  k0_pay1 (k0_pay2 (wordAt c i xt0) (wordAt c i xt1)) (k0_pay4 x0 x1 (wordAt c i xt0) (wordAt c i xt1))
    (k0_pay5 x0 x1 (wordAt c i xt0) (wordAt c i xt1)) (k0_pay6 (wordAt c i xt0) (wordAt c i xt1))

theorem hz3 : (![0, 0, 0] : Fin S1x512x128.rank → Nat) = fun _ => 0 := by
  funext a; match a with | ⟨0, _⟩ => rfl | ⟨1, _⟩ => rfl | ⟨2, _⟩ => rfl

/-- The body's one store: the unit rectangle at the point's offset, holding `stored`. -/
theorem kernelRun0_pieces (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S8 .f32) (harg5 : arg5.IsWhole)
    (x0 : Vec F S1x512x128 .f32) (x1 : Vec F S1x512x128 .f32) (y : Vec F S8 .f32) (xt0 : TbBuf0 (F := F) c tbM0_0) (xt1 : TbBuf0 (F := F) c tbM0_1) :
    (kernelRun0 c i arg3 harg3 arg4 harg4 arg5 harg5 x0 x1 y xt0 xt1).1
      = [(⟨Rect.unit (s := S8) (k0_off1 i) S1.size (k0_off1_inb i), stored c i x0 x1 xt0 xt1⟩ : View.Piece (Elt F) S8 .f32)] := by
  unfold kernelRun0 stored wordAt
  dsimp only
  sl_unfold_words
  simp only [View.readAt_eq_ld, harg3.read_unread, harg4.read_unread, View.ld_unit_zero (S := S1x512x128) hz3]

/-! ## One word of an 8-word block replaced -/

/-- The block `Y` with the word at position `k` replaced by `v`. -/
def put8 (k : ℕ) (Y : Vec F S8 .f32) (v : Elt F .f32) : Vec F S8 .f32 := fun y => if (y 0).val = k then v else Y y

/-- The one index of a one-word vector. -/
abbrev i1 : S1.Idx := Shape.Idx.first (numel1_S1.symm ▸ Nat.one_pos)

theorem s1_idx_eq (p q : S1.Idx) : p = q := funext fun a => by
  match a with
  | ⟨0, _⟩ => exact Fin.ext ((Nat.lt_one_iff.mp (show (p 0).val < 1 from (p 0).isLt)).trans (Nat.lt_one_iff.mp (show (q 0).val < 1 from (q 0).isLt)).symm)

/-- Reading back what the one store left over contents `Y`: `Y` with the point's word replaced. -/
theorem read_store (arg5 : Memref sig .tc .vmem S8 .f32) (harg5 : arg5.IsWhole) (i : grid0.Coords) (Y : Vec F S8 .f32) (w : FVec F S1 .f32) :
    arg5.view.read (Elt F) (arg5.view.writes (Elt F) (harg5.unread Y) [(⟨Rect.unit (s := S8) (k0_off1 i) S1.size (k0_off1_inb i), w⟩ : View.Piece (Elt F) S8 .f32)])
      = put8 (i 0).val Y (w i1) := by
  funext y
  rw [View.read_writes_cons_unit arg5.view (harg5.unread Y) (k0_off1_inb i) w [] y (k0_off1_eq i)]
  unfold put8
  by_cases h : (y 0).val = (i 0).val
  · have hall : ∀ a, (![(i 0).val] : Fin S8.rank → ℕ) a ≤ (y a).val ∧ (y a).val < (![(i 0).val] : Fin S8.rank → ℕ) a + S1.size a := fun a => by
      match a with
      | ⟨0, _⟩ => exact ⟨by show (i 0).val ≤ (y 0).val; omega, by show (y 0).val < (i 0).val + 1; omega⟩
    rw [if_pos h, dif_pos hall]
    exact congrArg w (s1_idx_eq _ _)
  · have hnall : ¬ ∀ a, (![(i 0).val] : Fin S8.rank → ℕ) a ≤ (y a).val ∧ (y a).val < (![(i 0).val] : Fin S8.rank → ℕ) a + S1.size a := fun hall => by
      have := hall (0 : Fin S8.rank)
      have h1 : (i 0).val ≤ (y 0).val := this.1
      have h2 : (y 0).val < (i 0).val + 1 := this.2
      omega
    rw [if_neg h, dif_neg hnall, View.writes_nil, harg5.read_unread]

/-! ## The proof data -/

variable (m : (ℓ : Loc nD τ sig) → Buf (Elt F) ℓ) (ρ : Dev nD → PrngReg)

/-- The number point `t` contributes on core `c`: the body's arithmetic on the point's two blocks and the two size tables
    as the region finds them. -/
def dval (c : Dev nD) (t : Fin (cfgM m).N) : Elt F .f32 :=
  stored c (grid0.coords t) (iblk m c 0 t) (iblk m c 1 t) (tbl m 0) (tbl m 1) i1

/-- The proof data of the pipeline on core `c`: the arrays as the region finds them; the input buffers left as found;
    the output buffer left as found but for the point's word, which takes the point's number; the class's invariant
    and the tables' halves; nothing owed; full shares. -/
def rdat (c : Dev nD) : RDat τ (Elt F) Unit ℕ (UR sig nD τ) ℕ (cfgM m) c where
  A w := V m c (Pipeline.arrRef spec0 w)
  after w t Y X := match w, Y, X with
    | ⟨0, _⟩, Y, X => X = Y
    | ⟨1, _⟩, Y, X => X = Y
    | ⟨2, _⟩, Y, X => X = put8 t.val Y (dval m c t)
  Φ _ := iprop(Pipeline.ΦA spec0 c ∗ Pipeline.ΦT pre0 (tbl m) c)
  q _ := fullShare
  owed _ := 0

theorem A_eq (c : Dev nD) (w : Fin (cfgM m).W) : (rdat m c).A w = V m c (Pipeline.arrRef spec0 w) := by
  dsimp only [rdat]

/-- A fetched input buffer holds its block. -/
theorem finds_in0 (c : Dev nD) (t : Fin (cfgM m).N) (Y) (h : (rdat m c).Finds 0 t Y) : Y = iblk m c 0 t := by
  obtain ⟨d, rfl⟩ := ((rdat m c).finds_of_fetch (fetch0_0 (adm m) t) Y).mp h
  unfold RDat.fetched RDat.blockOf iblk
  rw [A_eq]; try rfl
theorem finds_in1 (c : Dev nD) (t : Fin (cfgM m).N) (Y) (h : (rdat m c).Finds 1 t Y) : Y = iblk m c 1 t := by
  obtain ⟨d, rfl⟩ := ((rdat m c).finds_of_fetch (fetch0_1 (adm m) t) Y).mp h
  unfold RDat.fetched RDat.blockOf iblk
  rw [A_eq]; try rfl

/-- The grid is one axis: a point's coordinate is the point. -/
theorem coords_val : ∀ t : Fin grid0.N, ((grid0.coords t) 0).val = t.val := by decide +kernel

end Cert.KernelIdeal.Hand

end
-- ==== Proof.IdealBody.lean ====
/-
  The body obligation and the frame run, for any float instance: at every grid point, from the invariant and the
  three current staging buffers at whatever they may hold there, the body runs to the invariant and the buffers at
  contents in the stated relation to what they held — the inputs unchanged, the output with the point's word replaced
  by the point's number.  The library's launch theorem then runs @main.
-/
import proofs.«431092_j45397804319098_1_alg».proof.Proof.IdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relations of the proof data, window by window. -/
theorem after_in0 (c : Dev nD) (t : Fin (cfgM m).N) (Y X) : (rdat m c).after 0 t Y X ↔ X = Y := Iff.rfl
theorem after_in1 (c : Dev nD) (t : Fin (cfgM m).N) (Y X) : (rdat m c).after 1 t Y X ↔ X = Y := Iff.rfl
theorem after_out (c : Dev nD) (t : Fin (cfgM m).N) (Y X) : (rdat m c).after 2 t Y X ↔ X = put8 t.val Y (dval m c t) := Iff.rfl

/-- What the output buffer reads after the body's store over contents `Y`: `Y` with the point's word replaced by the
    number computed from the input buffers' contents. -/
theorem read_after_gen (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S8 .f32) (harg5 : arg5.IsWhole)
    (x0 x1 : Vec F S1x512x128 .f32) (Y : Vec F S8 .f32) (xt0 : TbBuf0 (F := F) c tbM0_0) (xt1 : TbBuf0 (F := F) c tbM0_1) :
    arg5.view.read (Elt F) (arg5.view.writes (Elt F) (harg5.unread Y) (kernelRun0 c i arg3 harg3 arg4 harg4 arg5 harg5 x0 x1 Y xt0 xt1).1)
      = put8 (i 0).val Y (stored c i x0 x1 xt0 xt1 i1) := by
  rw [kernelRun0_pieces, read_store]

theorem read_after (c : Dev nD) (t : Fin (cfgM m).N) (x0 x1 : Vec F S1x512x128 .f32) (Y : Vec F S8 .f32) :
    (ms0_2 m t).view.read (Elt F) ((ms0_2 m t).view.writes (Elt F) ((hs0_2 m t).unread Y)
        (kernelRun0 c (grid0.coords t) (ms0_0 m t) (hs0_0 m t) (ms0_1 m t) (hs0_1 m t) (ms0_2 m t) (hs0_2 m t) x0 x1 Y (tbl m 0) (tbl m 1)).1)
      = put8 t.val Y (stored c (grid0.coords t) x0 x1 (tbl m 0) (tbl m 1) i1) :=
  (read_after_gen c (grid0.coords t) (ms0_0 m t) (hs0_0 m t) (ms0_1 m t) (hs0_1 m t) (ms0_2 m t) (hs0_2 m t) x0 x1 Y (tbl m 0) (tbl m 1)).trans
    (congrArg (fun k => put8 k Y (stored c (grid0.coords t) x0 x1 (tbl m 0) (tbl m 1) i1)) (coords_val t))

/-- When the input buffers hold their blocks that number is the point's. -/
theorem stored_eq_dval (c : Dev nD) (t : Fin (cfgM m).N) (x0 x1 : Vec F S1x512x128 .f32)
    (e0 : x0 = iblk m c 0 t) (e1 : x1 = iblk m c 1 t) :
    stored c (grid0.coords t) x0 x1 (tbl m 0) (tbl m 1) i1 = dval m c t := by
  subst e0; subst e1; rfl

/-- The body at any point. -/
theorem sound_body (c : Dev nD) (t : Fin (cfgM m).N) (Y : (w : Fin (cfgM m).W) → ((cfgM m).win w).block.Idx → Elt F ((cfgM m).win w).elt)
    (hY : ∀ w, (rdat m c).Finds w t (Y w)) :
    iprop((rdat m c).Φ t.castSucc ∗ (rdat m c).owesAt () t.castSucc
        ∗ owns (c : Thread nD τ) (ms0_0 m t) fullShare (Y 0) ∗ owns (c : Thread nD τ) (ms0_1 m t) fullShare (Y 1) ∗ owns (c : Thread nD τ) (ms0_2 m t) fullShare (Y 2))
      ⊢ wp frame (wpE (defs₀ (F := F)) Variants.none c none) Set.univ (bodyAt0 (adm m) t) (fun _ =>
          iprop((rdat m c).Φ t.succ ∗ (rdat m c).owesAt () t.succ
            ∗ (∃ X, ⌜(rdat m c).after 0 t (Y 0) X⌝ ∗ owns (c : Thread nD τ) (ms0_0 m t) fullShare X)
            ∗ (∃ X, ⌜(rdat m c).after 1 t (Y 1) X⌝ ∗ owns (c : Thread nD τ) (ms0_1 m t) fullShare X)
            ∗ (∃ X, ⌜(rdat m c).after 2 t (Y 2) X⌝ ∗ owns (c : Thread nD τ) (ms0_2 m t) fullShare X))) := by
  have e0 := finds_in0 m c t (Y 0) (hY 0)
  have e1 := finds_in1 m c t (Y 1) (hY 1)
  have hX := (read_after m c t (Y 0) (Y 1) (Y 2)).trans (congrArg (put8 t.val (Y 2)) (stored_eq_dval m c t (Y 0) (Y 1) e0 e1))
  unfold bodyAt0
  rw [show (rdat m c).Φ t.succ = (rdat m c).Φ t.castSucc from rfl,
    show (rdat m c).owesAt () t.succ = (rdat m c).owesAt () t.castSucc from rfl]
  rw [show (rdat m c).Φ t.castSucc = iprop(Pipeline.ΦA spec0 c ∗ Pipeline.ΦT pre0 (tbl m) c) from rfl, PhiT0_eq]
  iintro ⟨⟨HΦ, ⟨HT0, HT1⟩⟩, Ho, H0, H1, H2⟩
  iapply ((kernelRun0 c (grid0.coords t) (ms0_0 m t) (hs0_0 m t) (ms0_1 m t) (hs0_1 m t) (ms0_2 m t) (hs0_2 m t) (Y 0) (Y 1) (Y 2) (tbl m 0) (tbl m 1)).2 Set.univ _)
  isplitl [H0]; · iexact H0
  isplitl [H1]; · iexact H1
  isplitl [H2]; · iexact H2
  isplitl [HT0]; · iexact HT0
  isplitl [HT1]; · iexact HT1
  iintro ⟨H0, H1, H2, HT0, HT1⟩
  isplitl [HΦ HT0 HT1]
  · isplitl [HΦ]
    · iexact HΦ
    isplitl [HT0]; · iexact HT0
    iexact HT1
  isplitl [Ho]; · iexact Ho
  isplitl [H0]
  · iexists (Y 0); isplitr
    · ipureintro; exact (after_in0 m c t (Y 0) (Y 0)).mpr rfl
    · iexact H0
  isplitl [H1]
  · iexists (Y 1); isplitr
    · ipureintro; exact (after_in1 m c t (Y 1) (Y 1)).mpr rfl
    · iexact H1
  iexists _; isplitr; swap
  · unfold owns; iexists _; isplitr; swap
    · iexact H2
    · ipureintro; rfl
  · ipureintro; exact (after_out m c t (Y 2) _).mpr hX

/-- The library's body obligation, at every point. -/
theorem body_obligation (c : Dev nD) : (rdat (F := F) m c).BodyObligation (defs₀ (F := F)) Variants.none () Set.univ := fun t Y hY => by
  rw [bigSep_W0, bigSep_W0]
  exact sound_body m c t Y hY

set_option backward.isDefEq.respectTransparency.types false in
/-- The frame run: every weakly fair execution of @main terminates; every array holds contents it may hold after the
    write-backs, every other unscoped buffer its region-entry contents. -/
theorem run_main : θ_run defs (onTc (τ := τ) (main (F := F))) (s₀ m ρ) (Pipeline.RDat.FramePost ((Pipeline.pin pcfgs fun _ => adm m) 0) (fun c => rdat m c) (V m)) :=
  Pipeline.RDat.θ_run_frameP pcfgs (fun _ => adm m) (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hpf := V_pre m) (hΦ := fun _ _ => rfl)

end Cert.KernelIdeal.Hand

end
-- ==== Proof.IdealValue.lean ====
/-
  The result array after the run, for any float instance: word t of the 8-word result is the number grid point t
  computed.  The output buffer is handed from point to point and each point replaces its own word, so after point t
  the words 0..t hold their points' numbers; the one write-back, after the last point, copies the whole buffer to the
  result array (the block is the whole array).  The six argument arrays end unchanged.
-/
import proofs.«431092_j45397804319098_1_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

variable (m : (ℓ : Loc nD τ sig) → Buf (Elt F) ℓ) (ρ : Dev nD → PrngReg)

theorem cfgN : (cfgM m).N = 8 := N_0

/-- A position of the 8-word result as a grid point. -/
def ptOf (y : S8.Idx) : Fin (cfgM m).N := ⟨(y 0).val, lt_of_lt_of_eq (show (y 0).val < 8 from (y 0).isLt) (cfgN m).symm⟩

/-- The result array after the run: word k holds point k's number. -/
def outArr (c : Dev nD) : Vec F S8 .f32 := fun y => dval m c (ptOf m y)

/-- The output window is never fetched. -/
theorem fetch0_2 (t : Fin (cfgM m).N) : ((cfgM m).win 2).fetch t = false := ((cfgM m).win 2).fetch_out rfl t

/-- Before the last point the output block is not written back; -/
theorem noflush (n : ℕ) (hn : n < (cfgM m).N) (h6 : n < 7) : ((cfgM m).win 2).flush ⟨n, hn⟩ = false := by
  cases h : ((cfgM m).win 2).flush ⟨n, hn⟩ with
  | false => rfl
  | true =>
    have := (flush0_2 (adm m) ⟨n, hn⟩).mp h
    have h7 : n % 8 = 7 := this
    omega
/-- at the last point it is. -/
theorem lastflush (hn : 7 < (cfgM m).N) : ((cfgM m).win 2).flush ⟨7, hn⟩ = true := (flush0_2 (adm m) ⟨7, hn⟩).mpr rfl

/-- After point t the output buffer's words 0..t hold their points' numbers. -/
theorem leaves_out (c : Dev nD) : ∀ (n : ℕ) (t : Fin (cfgM m).N), t.val = n → ∀ X, (rdat m c).Leaves 2 t X →
    ∀ y : S8.Idx, (y 0).val ≤ t.val → (X : Vec F S8 .f32) y = outArr m c y := by
  intro n
  induction n using Nat.strong_induction_on with
  | _ n ih =>
    intro t ht X hL y hy
    have h8 := cfgN m
    obtain ⟨Y, hF, hA⟩ := hL
    have hA' := (after_out m c t Y X).mp hA
    subst hA'
    unfold put8
    by_cases hyt : (y 0).val = t.val
    · refine (if_pos hyt).trans ?_
      unfold outArr; exact congrArg (dval m c) (Fin.ext hyt.symm)
    · refine (if_neg hyt).trans ?_
      have ht0 : t.val ≠ 0 := by omega
      have hlt : t.val - 1 < (cfgM m).N := Nat.lt_of_le_of_lt (Nat.sub_le _ _) t.isLt
      rcases ((rdat m c).finds_of_pos (fetch0_2 m t) ht0 Y).mp hF with hfl | hL'
      · have hno := noflush m (t.val - 1) hlt (by have := t.isLt; omega)
        rw [hno] at hfl; exact absurd hfl Bool.false_ne_true
      · exact ih (t.val - 1) (by omega) ⟨t.val - 1, hlt⟩ rfl Y hL' y (by show (y 0).val ≤ t.val - 1; omega)

/-- Before the last point's write-back the result array is as the region found it. -/
theorem arrAt_early (c : Dev nD) : ∀ n, n ≤ 7 → ∀ G, (rdat m c).ArrAt 2 n G → G = (rdat m c).A 2
  | 0, _, G, h => h
  | n + 1, hn, G, h => by
    have h8 := cfgN m
    have hlt : n < (cfgM m).N := by omega
    rw [RDat.ArrAt] at h
    dsimp only at h
    rw [dif_pos hlt, noflush m n hlt (by omega), if_neg Bool.false_ne_true] at h
    exact arrAt_early c n (by omega) G h

/-- The output window's block index is 0 at every point: its block is the whole array, in place. -/
theorem blk_emb (t : Fin (cfgM m).N) (y : S8.Idx) : (((cfgM m).win 2).blk t).view.emb y = y := by
  funext a; apply Fin.ext
  match a with
  | ⟨0, _⟩ => show ((cfgM m).win 2).index t (0 : Fin 1) * 8 + 1 * (y 0).val = (y 0).val; have : ((cfgM m).win 2).index t (0 : Fin 1) = 0 := rfl; omega

/-- After the last point's write-back the result array holds every point's number. -/
theorem arrAt_final (c : Dev nD) (G) (h : (rdat m c).ArrAt 2 (cfgM m).N G) : G = outArr m c := by
  have h8 := cfgN m
  have h' : (rdat m c).ArrAt 2 (7 + 1) G := h
  rw [RDat.ArrAt] at h'
  dsimp only at h'
  have hlt : 7 < (cfgM m).N := by omega
  rw [dif_pos hlt, lastflush m hlt, if_pos rfl] at h'
  obtain ⟨G₀, X, -, hL, rfl⟩ := h'
  have key : ∀ i : S8.Idx, View.write (Elt F) (((cfgM m).win 2).blk ⟨7, hlt⟩).view G₀
      (((cfgM m).win 2).cut ((cfgM m).grid.coords ⟨7, hlt⟩) X) Finset.univ i = outArr m c i := fun i => by
    have hi : (i 0).val ≤ 7 := by have : (i 0).val < 8 := (i 0).isLt; omega
    have e := View.write_emb_of_mem (v := (((cfgM m).win 2).blk ⟨7, hlt⟩).view) G₀
      (((cfgM m).win 2).cut ((cfgM m).grid.coords ⟨7, hlt⟩) X) (M := Finset.univ) (x := i) (Finset.mem_univ _)
    refine ((congrArg (View.write (Elt F) (((cfgM m).win 2).blk ⟨7, hlt⟩).view G₀
      (((cfgM m).win 2).cut ((cfgM m).grid.coords ⟨7, hlt⟩) X) Finset.univ) (blk_emb m ⟨7, hlt⟩ i)).symm.trans e).trans ?_
    exact leaves_out m c 7 ⟨7, hlt⟩ rfl X hL i hi
  exact funext key

/-- THE VALUE RUN: every weakly fair execution of @main terminates, the result array holding every point's number
    and the six argument arrays unchanged. -/
theorem run_value : θ_run defs (onTc (τ := τ) (main (F := F))) ⟨m, fun _ => 0, ρ⟩ (fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨arrAt_final m c _ ((h c).1 2),
      (Pipeline.RDat.FramePost.arr_in h c 0 rfl).trans (A_eq m c 0),
      (h c).2 main_arg1 (by decide : main_arg1 ∈ Pipeline.restRefs sig spec0),
      (h c).2 main_arg2 (by decide : main_arg2 ∈ Pipeline.restRefs sig spec0),
      (Pipeline.RDat.FramePost.arr_in h c 1 rfl).trans (A_eq m c 1),
      (h c).2 main_arg4 (by decide : main_arg4 ∈ Pipeline.restRefs sig spec0),
      (h c).2 main_arg5 (by decide : main_arg5 ∈ Pipeline.restRefs sig spec0)⟩) (run_main m ρ)

/-- THE FRAME: every weakly fair execution of @main terminates with the six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_value m ρ)

end Cert.KernelIdeal.Hand

end
-- ==== Proof.RefRun.lean ====
/-
  The reference program's run, read back: every execution of @main ends with the result buffer at the last stage of
  the reference read one operation at a time, and with the six arguments as launched.

  @main is listed as its 49 operations in order, the three calls of the "where" helpers standing as their three
  operations each (the constant converted, broadcast, the select) over the buffers the calls name.
-/
import proofs.«431092_j45397804319098_1_alg».proof.Proof.ReferenceReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- @main's 49 operations, in order. -/
abbrev ops : List (HloOp τ sig (Elt F)) :=
  [ unary main_arg0 main_v0 (broadcastInDim S8x1x512x128 ![0, 2, 3] bcast_S8x512x128_S8x1x512x128_0_2_3 : (⟨S8x512x128, .f32⟩ : BufTy).Contents (Elt F) → (⟨S8x1x512x128, .f32⟩ : BufTy).Contents (Elt F)),
    unary main_arg3 main_v1 (broadcastInDim S8x512x1x128 ![0, 1, 3] bcast_S8x512x128_S8x512x1x128_0_1_3 : (⟨S8x512x128, .f32⟩ : BufTy).Contents (Elt F) → (⟨S8x512x1x128, .f32⟩ : BufTy).Contents (Elt F)),
    unary main_v0 main_v2 (broadcastInDim S8x512x512x128 ![0, 1, 2, 3] bcast_S8x1x512x128_S8x512x512x128_0_1_2_3 : (⟨S8x1x512x128, .f32⟩ : BufTy).Contents (Elt F) → (⟨S8x512x512x128, .f32⟩ : BufTy).Contents (Elt F)),
    unary main_v1 main_v3 (broadcastInDim S8x512x512x128 ![0, 1, 2, 3] bcast_S8x512x1x128_S8x512x512x128_0_1_2_3 : (⟨S8x512x1x128, .f32⟩ : BufTy).Contents (Elt F) → (⟨S8x512x512x128, .f32⟩ : BufTy).Contents (Elt F)),
    binary main_v2 main_v3 main_v4 (subf : (⟨S8x512x512x128, .f32⟩ : BufTy).Contents (Elt F) → (⟨S8x512x512x128, .f32⟩ : BufTy).Contents (Elt F) → (⟨S8x512x512x128, .f32⟩ : BufTy).Contents (Elt F)),
    binary main_v4 main_v4 main_v5 (mulf : (⟨S8x512x512x128, .f32⟩ : BufTy).Contents (Elt F) → (⟨S8x512x512x128, .f32⟩ : BufTy).Contents (Elt F) → (⟨S8x512x512x128, .f32⟩ : BufTy).Contents (Elt F)),
    nullary main_cst (constant S_ .f32 0x00000000#32),
    binary main_v5 main_cst main_v6 ((fun x v => Host.reduceAdd x v reducesTo_S8x512x512x128_S8x512x512_d3 h_S_) : (⟨S8x512x512x128, .f32⟩ : BufTy).Contents (Elt F) → (⟨S_, .f32⟩ : BufTy).Contents (Elt F) → (⟨S8x512x512, .f32⟩ : BufTy).Contents (Elt F)),
    unary main_v6 main_v7 (Host.sqrt : (⟨S8x512x512, .f32⟩ : BufTy).Contents (Elt F) → (⟨S8x512x512, .f32⟩ : BufTy).Contents (Elt F)),
    nullary main_v8 (iotaInDim S512 32 0),
    unary main_v8 main_v9 (broadcastInDim S1x1x512 ![2] bcast_S512_S1x1x512_2 : (⟨S512, .i32⟩ : BufTy).Contents (Elt F) → (⟨S1x1x512, .i32⟩ : BufTy).Contents (Elt F)),
    unary main_arg2 main_v10 (broadcastInDim S8x1x1 ![0] bcast_S8_S8x1x1_0 : (⟨S8, .i32⟩ : BufTy).Contents (Elt F) → (⟨S8x1x1, .i32⟩ : BufTy).Contents (Elt F)),
    unary main_v9 main_v11 (broadcastInDim S8x1x512 ![0, 1, 2] bcast_S1x1x512_S8x1x512_0_1_2 : (⟨S1x1x512, .i32⟩ : BufTy).Contents (Elt F) → (⟨S8x1x512, .i32⟩ : BufTy).Contents (Elt F)),
    unary main_v10 main_v12 (broadcastInDim S8x1x512 ![0, 1, 2] bcast_S8x1x1_S8x1x512_0_1_2 : (⟨S8x1x1, .i32⟩ : BufTy).Contents (Elt F) → (⟨S8x1x512, .i32⟩ : BufTy).Contents (Elt F)),
    binary main_v11 main_v12 main_v13 (cmpi .sge : (⟨S8x1x512, .i32⟩ : BufTy).Contents (Elt F) → (⟨S8x1x512, .i32⟩ : BufTy).Contents (Elt F) → (⟨S8x1x512, .i1⟩ : BufTy).Contents (Elt F)),
    nullary main_v14 (iotaInDim S512 32 0),
    unary main_v14 main_v15 (broadcastInDim S1x512x1 ![1] bcast_S512_S1x512x1_1 : (⟨S512, .i32⟩ : BufTy).Contents (Elt F) → (⟨S1x512x1, .i32⟩ : BufTy).Contents (Elt F)),
    unary main_arg5 main_v16 (broadcastInDim S8x1x1 ![0] bcast_S8_S8x1x1_0 : (⟨S8, .i32⟩ : BufTy).Contents (Elt F) → (⟨S8x1x1, .i32⟩ : BufTy).Contents (Elt F)),
    unary main_v15 main_v17 (broadcastInDim S8x512x1 ![0, 1, 2] bcast_S1x512x1_S8x512x1_0_1_2 : (⟨S1x512x1, .i32⟩ : BufTy).Contents (Elt F) → (⟨S8x512x1, .i32⟩ : BufTy).Contents (Elt F)),
    unary main_v16 main_v18 (broadcastInDim S8x512x1 ![0, 1, 2] bcast_S8x1x1_S8x512x1_0_1_2 : (⟨S8x1x1, .i32⟩ : BufTy).Contents (Elt F) → (⟨S8x512x1, .i32⟩ : BufTy).Contents (Elt F)),
    binary main_v17 main_v18 main_v19 (cmpi .sge : (⟨S8x512x1, .i32⟩ : BufTy).Contents (Elt F) → (⟨S8x512x1, .i32⟩ : BufTy).Contents (Elt F) → (⟨S8x512x1, .i1⟩ : BufTy).Contents (Elt F)),
    unary main_v13 main_v20 (broadcastInDim S8x512x512 ![0, 1, 2] bcast_S8x1x512_S8x512x512_0_1_2 : (⟨S8x1x512, .i1⟩ : BufTy).Contents (Elt F) → (⟨S8x512x512, .i1⟩ : BufTy).Contents (Elt F)),
    unary main_v19 main_v21 (broadcastInDim S8x512x512 ![0, 1, 2] bcast_S8x512x1_S8x512x512_0_1_2 : (⟨S8x512x1, .i1⟩ : BufTy).Contents (Elt F) → (⟨S8x512x512, .i1⟩ : BufTy).Contents (Elt F)),
    binary main_v20 main_v21 main_v22 (ori : (⟨S8x512x512, .i1⟩ : BufTy).Contents (Elt F) → (⟨S8x512x512, .i1⟩ : BufTy).Contents (Elt F) → (⟨S8x512x512, .i1⟩ : BufTy).Contents (Elt F)),
    nullary main_cst_0 (constant S_ .f32 0x7F800000#32),
    unary main_cst_0 main_call0_v0 (id : (⟨S_, .f32⟩ : BufTy).Contents (Elt F) → (⟨S_, .f32⟩ : BufTy).Contents (Elt F)),
    unary main_call0_v0 main_call0_v1 (broadcastInDim S8x512x512 ![] bcast_S_S8x512x512 : (⟨S_, .f32⟩ : BufTy).Contents (Elt F) → (⟨S8x512x512, .f32⟩ : BufTy).Contents (Elt F)),
    ternary main_v22 main_call0_v1 main_v7 main_v23 (select : (⟨S8x512x512, .i1⟩ : BufTy).Contents (Elt F) → (⟨S8x512x512, .f32⟩ : BufTy).Contents (Elt F) → (⟨S8x512x512, .f32⟩ : BufTy).Contents (Elt F) → (⟨S8x512x512, .f32⟩ : BufTy).Contents (Elt F)),
    nullary main_cst_1 (constant S_ .f32 0x7F800000#32),
    binary main_v23 main_cst_1 main_v24 ((fun x v => Host.reduce FloatOps.minimumf x v reducesTo_S8x512x512_S8x512_d2 h_S_) : (⟨S8x512x512, .f32⟩ : BufTy).Contents (Elt F) → (⟨S_, .f32⟩ : BufTy).Contents (Elt F) → (⟨S8x512, .f32⟩ : BufTy).Contents (Elt F)),
    nullary main_cst_2 (constant S_ .f32 0x7F800000#32),
    binary main_v23 main_cst_2 main_v25 ((fun x v => Host.reduce FloatOps.minimumf x v reducesTo_S8x512x512_S8x512_d1 h_S_) : (⟨S8x512x512, .f32⟩ : BufTy).Contents (Elt F) → (⟨S_, .f32⟩ : BufTy).Contents (Elt F) → (⟨S8x512, .f32⟩ : BufTy).Contents (Elt F)),
    nullary main_c (constantI S_ 1 1#1),
    binary main_v22 main_c main_v26 ((fun x v => Host.reduce IntOp.andi x v reducesTo_S8x512x512_S8x512_d2 h_S_) : (⟨S8x512x512, .i1⟩ : BufTy).Contents (Elt F) → (⟨S_, .i1⟩ : BufTy).Contents (Elt F) → (⟨S8x512, .i1⟩ : BufTy).Contents (Elt F)),
    nullary main_cst_3 (constant S_ .f32 0x00000000#32),
    unary main_cst_3 main_call1_v0 (id : (⟨S_, .f32⟩ : BufTy).Contents (Elt F) → (⟨S_, .f32⟩ : BufTy).Contents (Elt F)),
    unary main_call1_v0 main_call1_v1 (broadcastInDim S8x512 ![] bcast_S_S8x512 : (⟨S_, .f32⟩ : BufTy).Contents (Elt F) → (⟨S8x512, .f32⟩ : BufTy).Contents (Elt F)),
    ternary main_v26 main_call1_v1 main_v24 main_v27 (select : (⟨S8x512, .i1⟩ : BufTy).Contents (Elt F) → (⟨S8x512, .f32⟩ : BufTy).Contents (Elt F) → (⟨S8x512, .f32⟩ : BufTy).Contents (Elt F) → (⟨S8x512, .f32⟩ : BufTy).Contents (Elt F)),
    nullary main_c_4 (constantI S_ 1 1#1),
    binary main_v22 main_c_4 main_v28 ((fun x v => Host.reduce IntOp.andi x v reducesTo_S8x512x512_S8x512_d1 h_S_) : (⟨S8x512x512, .i1⟩ : BufTy).Contents (Elt F) → (⟨S_, .i1⟩ : BufTy).Contents (Elt F) → (⟨S8x512, .i1⟩ : BufTy).Contents (Elt F)),
    nullary main_cst_5 (constant S_ .f32 0x00000000#32),
    unary main_cst_5 main_call2_v0 (id : (⟨S_, .f32⟩ : BufTy).Contents (Elt F) → (⟨S_, .f32⟩ : BufTy).Contents (Elt F)),
    unary main_call2_v0 main_call2_v1 (broadcastInDim S8x512 ![] bcast_S_S8x512 : (⟨S_, .f32⟩ : BufTy).Contents (Elt F) → (⟨S8x512, .f32⟩ : BufTy).Contents (Elt F)),
    ternary main_v28 main_call2_v1 main_v25 main_v29 (select : (⟨S8x512, .i1⟩ : BufTy).Contents (Elt F) → (⟨S8x512, .f32⟩ : BufTy).Contents (Elt F) → (⟨S8x512, .f32⟩ : BufTy).Contents (Elt F) → (⟨S8x512, .f32⟩ : BufTy).Contents (Elt F)),
    nullary main_cst_6 (constant S_ .f32 0xFF800000#32),
    binary main_v27 main_cst_6 main_v30 ((fun x v => Host.reduce FloatOps.maximumf x v reducesTo_S8x512_S8_d1 h_S_) : (⟨S8x512, .f32⟩ : BufTy).Contents (Elt F) → (⟨S_, .f32⟩ : BufTy).Contents (Elt F) → (⟨S8, .f32⟩ : BufTy).Contents (Elt F)),
    nullary main_cst_7 (constant S_ .f32 0xFF800000#32),
    binary main_v29 main_cst_7 main_v31 ((fun x v => Host.reduce FloatOps.maximumf x v reducesTo_S8x512_S8_d1 h_S_) : (⟨S8x512, .f32⟩ : BufTy).Contents (Elt F) → (⟨S_, .f32⟩ : BufTy).Contents (Elt F) → (⟨S8, .f32⟩ : BufTy).Contents (Elt F)),
    binary main_v30 main_v31 main_v32 (maximumf : (⟨S8, .f32⟩ : BufTy).Contents (Elt F) → (⟨S8, .f32⟩ : BufTy).Contents (Elt F) → (⟨S8, .f32⟩ : BufTy).Contents (Elt F)) ]

set_option maxRecDepth 2048 in
/-- @main is that straight line: the helpers' bodies unfolded at their calls, both sides are one chain of steps once the
    sequencing is reassociated. -/
theorem main_eq (c : Dev nD) : main (F := F) c = seq ops := by
  simp only [main, fn_where.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation names TensorCore buffers only. -/
theorem ops_sub : (ops : List (HloOp τ sig (Elt F))).Forall fun op => op.bufs ⊆ tcRefs τ sig :=
  ⟨unary_bufs_sub .., unary_bufs_sub .., unary_bufs_sub .., unary_bufs_sub .., binary_bufs_sub .., binary_bufs_sub .., nullary_bufs_sub .., binary_bufs_sub .., unary_bufs_sub .., nullary_bufs_sub .., unary_bufs_sub .., unary_bufs_sub .., unary_bufs_sub .., unary_bufs_sub .., binary_bufs_sub .., nullary_bufs_sub .., unary_bufs_sub .., unary_bufs_sub .., unary_bufs_sub .., unary_bufs_sub .., binary_bufs_sub .., unary_bufs_sub .., unary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., binary_bufs_sub ..⟩

set_option maxRecDepth 8192 in
set_option maxHeartbeats 1000000 in
/-- No operation writes argument 0: it is as launched. -/
theorem arg0_eq (V : Valuation τ sig (Elt F)) : after ops V (main_arg0 : DevRef τ sig) = V (main_arg0 : DevRef τ sig) := by
  after_results_simp

set_option maxRecDepth 8192 in
set_option maxHeartbeats 1000000 in
/-- No operation writes argument 1: it is as launched. -/
theorem arg1_eq (V : Valuation τ sig (Elt F)) : after ops V (main_arg1 : DevRef τ sig) = V (main_arg1 : DevRef τ sig) := by
  after_results_simp

set_option maxRecDepth 8192 in
set_option maxHeartbeats 1000000 in
/-- No operation writes argument 2: it is as launched. -/
theorem arg2_eq (V : Valuation τ sig (Elt F)) : after ops V (main_arg2 : DevRef τ sig) = V (main_arg2 : DevRef τ sig) := by
  after_results_simp

set_option maxRecDepth 8192 in
set_option maxHeartbeats 1000000 in
/-- No operation writes argument 3: it is as launched. -/
theorem arg3_eq (V : Valuation τ sig (Elt F)) : after ops V (main_arg3 : DevRef τ sig) = V (main_arg3 : DevRef τ sig) := by
  after_results_simp

set_option maxRecDepth 8192 in
set_option maxHeartbeats 1000000 in
/-- No operation writes argument 4: it is as launched. -/
theorem arg4_eq (V : Valuation τ sig (Elt F)) : after ops V (main_arg4 : DevRef τ sig) = V (main_arg4 : DevRef τ sig) := by
  after_results_simp

set_option maxRecDepth 8192 in
set_option maxHeartbeats 1000000 in
/-- No operation writes argument 5: it is as launched. -/
theorem arg5_eq (V : Valuation τ sig (Elt F)) : after ops V (main_arg5 : DevRef τ sig) = V (main_arg5 : DevRef τ sig) := by
  after_results_simp

attribute [local irreducible] Host.reduce Host.reduceAdd in
set_option maxRecDepth 8192 in
set_option maxHeartbeats 1000000 in
/-- After the 49 operations the result buffer holds the last stage of the reference read one operation at a time:
    each operation's result is its function of its operands' buffers, no later operation writes a buffer again, and
    the stages are those same functions composed. -/
theorem v32_eq (V : Valuation τ sig (Elt F)) :
    after ops V (main_v32 : DevRef τ sig)
      = ReadP.val_main_v32 (F := F) (V (main_arg0 : DevRef τ sig)) (V (main_arg2 : DevRef τ sig)) (V (main_arg3 : DevRef τ sig)) (V (main_arg5 : DevRef τ sig)) := by
  after_results_simp
  simp only [ReadP.val_main_v0, ReadP.val_main_v1, ReadP.val_main_v2, ReadP.val_main_v3, ReadP.val_main_v4, ReadP.val_main_v5, ReadP.val_main_cst, ReadP.val_main_v6, ReadP.val_main_v7, ReadP.val_main_v8, ReadP.val_main_v9, ReadP.val_main_v10, ReadP.val_main_v11, ReadP.val_main_v12, ReadP.val_main_v13, ReadP.val_main_v14, ReadP.val_main_v15, ReadP.val_main_v16, ReadP.val_main_v17, ReadP.val_main_v18, ReadP.val_main_v19, ReadP.val_main_v20, ReadP.val_main_v21, ReadP.val_main_v22, ReadP.val_main_cst_0, ReadP.val_main_call0_v0, ReadP.val_main_call0_v1, ReadP.val_main_v23, ReadP.val_main_cst_1, ReadP.val_main_v24, ReadP.val_main_cst_2, ReadP.val_main_v25, ReadP.val_main_c, ReadP.val_main_v26, ReadP.val_main_cst_3, ReadP.val_main_call1_v0, ReadP.val_main_call1_v1, ReadP.val_main_v27, ReadP.val_main_c_4, ReadP.val_main_v28, ReadP.val_main_cst_5, ReadP.val_main_call2_v0, ReadP.val_main_call2_v1, ReadP.val_main_v29, ReadP.val_main_cst_6, ReadP.val_main_v30, ReadP.val_main_cst_7, ReadP.val_main_v31, ReadP.val_main_v32]

/-- On every device, for any float values, from any memory with zero counters: every weakly fair execution of @main
    terminates with the result at the reference's last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = Cert.ReferenceIdeal.ReadP.val_main_v32 (F := F) (m ((c.tc : Thread nD τ).loc main_arg0)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v32).trans (v32_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq scopedRefs_eq scopedSems_eq defs main (fun _ => ops) main_eq (fun _ => ops_sub) m ρ)

end Cert.ReferenceIdeal.RunH

end
-- ==== Proof.Spec.lean ====
/-
  The directed-Hausdorff-style distance of two point sets, as one function of the data of one batch entry.

  A batch entry has two sets of 512 points in 128 coordinates, `X1` and `X2`, and two sizes `s1`, `s2`
  (signed 32-bit words).  The pair (j, i) — point j of the second set against point i of the first — is
  switched off when i is at or beyond `s1` or j is at or beyond `s2`.  A live pair contributes the Euclidean
  distance of its two points, a switched-off pair +∞.  For every j the least entry over i is taken, and for
  every i the least over j; a row (column) all of whose pairs are switched off gives 0 instead.  The result is
  the greater of the greatest row value and the greatest column value.  Everything is over the extended reals.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Hausdorff

open Idealize.ShloMosaic

/-- One set of 512 points in 128 coordinates. -/
abbrev Pts := Fin 512 → Fin 128 → EReal

/-- The pair (j, i) is switched off: i is not below the first size, or j is not below the second (signed). -/
def off (s1 s2 : BitVec 32) (j i : Fin 512) : BitVec 1 :=
  IntOp.ori (IntOp.cmpi .sge (BitVec.ofNat 32 i.val) s1) (IntOp.cmpi .sge (BitVec.ofNat 32 j.val) s2)

/-- The squared distance of point i of the first set from point j of the second. -/
def sqd (X1 X2 : Pts) (j i : Fin 512) : EReal := ∑ d : Fin 128, (X1 i d - X2 j d) * (X1 i d - X2 j d)

/-- The entry of the pair (j, i): +∞ when switched off, else the distance. -/
def entry (X1 X2 : Pts) (s1 s2 : BitVec 32) (j i : Fin 512) : EReal :=
  Scalar.select (off s1 s2 j i) ⊤ (Ideal.sqrt (sqd X1 X2 j i))

/-- The least entry of row j (over the points i of the first set). -/
def rowMin (X1 X2 : Pts) (s1 s2 : BitVec 32) (j : Fin 512) : EReal :=
  (Finset.univ : Finset (Fin 512)).fold min ⊤ fun i => entry X1 X2 s1 s2 j i

/-- The least entry of column i (over the points j of the second set). -/
def colMin (X1 X2 : Pts) (s1 s2 : BitVec 32) (i : Fin 512) : EReal :=
  (Finset.univ : Finset (Fin 512)).fold min ⊤ fun j => entry X1 X2 s1 s2 j i

/-- Every pair of row j is switched off. -/
def rowOff (s1 s2 : BitVec 32) (j : Fin 512) : BitVec 1 :=
  (Finset.univ : Finset (Fin 512)).fold IntOp.andi 1#1 fun i => off s1 s2 j i

/-- Every pair of column i is switched off. -/
def colOff (s1 s2 : BitVec 32) (i : Fin 512) : BitVec 1 :=
  (Finset.univ : Finset (Fin 512)).fold IntOp.andi 1#1 fun j => off s1 s2 j i

/-- The distance of the batch entry: the greater of the greatest row value and the greatest column value, a row
    or column with no live pair counting 0. -/
def dist (X1 X2 : Pts) (s1 s2 : BitVec 32) : EReal :=
  max ((Finset.univ : Finset (Fin 512)).fold max ⊥ fun j => Scalar.select (rowOff s1 s2 j) 0 (rowMin X1 X2 s1 s2 j))
      ((Finset.univ : Finset (Fin 512)).fold max ⊥ fun i => Scalar.select (colOff s1 s2 i) 0 (colMin X1 X2 s1 s2 i))

end Cert.Hausdorff

end
-- ==== Proof.Algebra.lean ====
/-
  Two facts about extended reals and one-bit words that join the two spellings of the distance.

  (1) For REAL points x, y the two squared norms less twice the inner product is the squared distance, which is
      not negative, so taking the greater of it and 0 changes nothing.  (Over the extended reals with an infinite
      coordinate the subtraction would not cancel: this is where finiteness of the inputs is used.)
  (2) The least of the words' indicators (1 for a set word, 0 for a clear one) over a finite family, starting
      from +∞, is positive exactly when every word is set.
-/
import proofs.«431092_j45397804319098_1_alg».proof.Proof.Spec

noncomputable section

open scoped BigOperators

namespace Cert.Hausdorff

open Idealize.ShloMosaic

/-- The inclusion of the reals in the extended reals is additive, so it passes through a finite sum. -/
private theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- (1) For real points, the greater of ‖y‖² + ‖x‖² − 2 ⟨y, x⟩ and 0 is the squared distance ∑ (x − y)². -/
theorem max_norms_sub_cross (x y : Fin 128 → EReal) (hx : ∀ d, ∃ r : ℝ, x d = (r : EReal)) (hy : ∀ d, ∃ r : ℝ, y d = (r : EReal)) :
    max (((∑ d : Fin 128, y d * y d) + (∑ d : Fin 128, x d * x d)) - (2 : EReal) * (∑ d : Fin 128, y d * x d)) 0
      = ∑ d : Fin 128, (x d - y d) * (x d - y d) := by
  -- Name the real coordinates: x d = a d and y d = b d.
  choose a ha using hx
  choose b hb using hy
  obtain rfl : x = fun d => (a d : EReal) := funext ha
  obtain rfl : y = fun d => (b d : EReal) := funext hb
  -- Every product, difference and sum of real coordinates is the inclusion of the real one.
  have h2 : (2 : EReal) = ((2 : ℝ) : EReal) := by norm_cast
  simp only [h2, ← EReal.coe_mul, ← EReal.coe_sub, ← coe_finset_sum, ← EReal.coe_add]
  -- Over the reals: b² + a² − 2 b a = (a − b)², coordinate by coordinate.
  have key : (∑ d : Fin 128, b d * b d) + (∑ d : Fin 128, a d * a d) - 2 * (∑ d : Fin 128, b d * a d)
      = ∑ d : Fin 128, (a d - b d) * (a d - b d) := by
    rw [Finset.mul_sum, ← Finset.sum_add_distrib, ← Finset.sum_sub_distrib]
    exact Finset.sum_congr rfl (fun d _ => by ring)
  rw [key]
  -- A sum of squares is not negative.
  have hnn : (0 : ℝ) ≤ ∑ d : Fin 128, (a d - b d) * (a d - b d) :=
    Finset.sum_nonneg (fun d _ => mul_self_nonneg _)
  exact max_eq_left (by exact_mod_cast hnn)

/-- Over any finite subfamily: when every word is set the least indicator (from +∞) is positive, and when some
    word is clear it is at most 0. -/
private theorem indicator_fold (m : Fin 512 → BitVec 1) (s : Finset (Fin 512)) :
    (s.fold IntOp.andi 1#1 m = 1#1 ∧ (0 : EReal) < s.fold min ⊤ fun i => Scalar.select (m i) (1 : EReal) 0) ∨
    (s.fold IntOp.andi 1#1 m = 0#1 ∧ (s.fold min ⊤ fun i => Scalar.select (m i) (1 : EReal) 0) ≤ 0) := by
  induction s using Finset.induction_on with
  | empty => left; simp
  | insert a s ha ih =>
    rw [Finset.fold_insert ha, Finset.fold_insert ha]
    -- A one-bit word is clear or set.
    have hm : m a = 0#1 ∨ m a = 1#1 := by
      generalize m a = w
      revert w
      decide
    rcases hm with h | h
    · -- A clear word: the conjunction is clear and the least indicator is at most its indicator 0.
      right
      rw [h]
      exact ⟨by simp [IntOp.andi], by simp [Scalar.select]⟩
    · -- A set word: the conjunction is that of the rest, and min 1 t is positive exactly when t is.
      rw [h]
      have hand : IntOp.andi 1#1 (s.fold IntOp.andi 1#1 m) = s.fold IntOp.andi 1#1 m := by
        generalize s.fold IntOp.andi 1#1 m = w
        revert w
        decide
      have hsel : Scalar.select (1#1) (1 : EReal) 0 = 1 := by simp [Scalar.select]
      rw [hand, hsel]
      rcases ih with ⟨h1, h2⟩ | ⟨h1, h2⟩
      · exact Or.inl ⟨h1, lt_min zero_lt_one h2⟩
      · exact Or.inr ⟨h1, le_trans (min_le_right _ _) h2⟩

/-- (2) The least indicator over the family, from +∞, is positive exactly when every word is set. -/
theorem indicator_min_pos (m : Fin 512 → BitVec 1) :
    Ideal.cmp .ogt ((Finset.univ : Finset (Fin 512)).fold min ⊤ fun i => Scalar.select (m i) (1 : EReal) 0) 0
      = (Finset.univ : Finset (Fin 512)).fold IntOp.andi 1#1 m := by
  rcases indicator_fold m Finset.univ with ⟨h1, h2⟩ | ⟨h1, h2⟩
  · rw [h1]
    simp [Ideal.cmp, h2]
  · rw [h1]
    simp [Ideal.cmp, not_lt.mpr h2]

end Cert.Hausdorff

end
-- ==== Proof.KernelPayload.lean ====
/-
  What the kernel's body stores for one batch entry, read as the distance of that entry.

  The body holds the entry's two point sets as [1, 512, 128] blocks and its two sizes as words.  It forms the
  squared norms of the points (lane sums), their inner products (one matrix product), the squared distances as
  norms less twice the inner products clamped below at 0, their roots, the switched-off pairs from two iotas
  against the sizes, the row and column minima, the rows and columns with no live pair (as a positive minimum of
  indicators), and the greater of the two maxima.  For real points this is `Cert.Hausdorff.dist`.
-/
import proofs.«431092_j45397804319098_1_alg».proof.Proof.Gen.KernelIdeal.Skeleton
import proofs.«431092_j45397804319098_1_alg».proof.Proof.Algebra
import Idealize.ShloMosaic.Lib.ValueLayout
import Idealize.ShloMosaic.Lib.IdealHost

noncomputable section

open scoped BigOperators

namespace Cert.Hausdorff

open Idealize.ShloMosaic Idealize.ShloMosaic.ValueIdx Cert.KernelIdeal Cert.KernelIdeal.Gen

/-! ## The float words the body names -/

/-- The word 0x40000000 is the real 2. -/
private theorem lit_two : Ideal.ofBits .f32 0x40000000#32 = 2 := by
  rw [show (2 : EReal) = ((2 : ℝ) : EReal) by norm_cast]
  simp [Ideal.ofBits, Ideal.ieee, -EReal.coe_mul]; norm_num

/-- The word 0x7F800000 is +∞. -/
private theorem lit_top : Ideal.ofBits .f32 0x7F800000#32 = ⊤ := by
  simp [Ideal.ofBits, Ideal.ieee]

/-- The word 0xFF800000 is −∞. -/
private theorem lit_bot : Ideal.ofBits .f32 0xFF800000#32 = ⊥ := by
  simp [Ideal.ofBits, Ideal.ieee]

/-- A root taken elementwise is the root of the element. -/
private theorem sqrt_apply {s : Shape} {φ : FTy} (a : FVec Ideal s φ) (i : s.Idx) : sqrt a i = Ideal.sqrt (a i) := rfl

/-! ## The switched-off pairs -/

/-- The bit of the pair (j, i): the column number i is at or beyond the first size, or the row number j at or beyond
    the second. -/
private theorem pay2_apply (w1 w2 : BitVec 32) (j i : Fin 512) :
    k0_pay2 (F := Ideal) w1 w2 (ix2 j i) = off w1 w2 j i := by
  unfold k0_pay2 off
  show IntOp.ori (IntOp.cmpi .sge (iota .tc S512x512 32 [1] _ (ix2 j i)) w1)
      (IntOp.cmpi .sge (iota .tc S512x512 32 [0] _ (ix2 j i)) w2) = _
  rw [iota_single_apply, iota_single_apply]

/-! ## The layout steps, read at coordinates -/

/-- The lane sum of the squares of row p. -/
private theorem norms_apply (x : FVec Ideal S512x128 .f32) (h : S512x128.Reduces [1] S512) (hφ : FKind.Formats .f32)
    (hacc : (0x00000000#32 : BitVec 32) = 0x00000000#32) (p : Fin 512) :
    multiReduction (F := Ideal) .add [1] S512 (mulf x x) 0x00000000#32 h hφ hacc (ix1 p)
      = ∑ d : Fin 128, x (ix2 p d) * x (ix2 p d) := by
  refine (Ideal.multiReduction_add_single (mulf x x) _ h hφ hacc (ix1 p)).trans ?_
  refine Finset.sum_congr rfl fun d _ => ?_
  have e : h.lift (ix1 p) d = ix2 p d := by
    funext a
    match a with
    | ⟨0, _⟩ => rfl
    | ⟨1, _⟩ => rfl
  rw [e]
  rfl

/-- A vector of 512 entries seen as one column: entry (j, 0) is entry j. -/
private theorem col_cast_apply {α : Type} (x : S512.Idx → α) (h : S512.ShapeCasts S512x1) (j : Fin 512) (u : Fin 1) :
    shapeCast S512x1 x h (ix2 j u) = x (ix1 j) :=
  shapeCast_apply x h _ _ (by
    have hu : u.val = 0 := by omega
    rw [Shape.rowMajor_val_two, Shape.rowMajor_val_one]
    show j.val = j.val * 1 + u.val
    rw [hu, Nat.mul_one, Nat.add_zero])

/-- One column copied across the columns: entry (j, i) is the column's entry j. -/
private theorem bcast_col_apply {α : Type} (x : S512x1.Idx → α) (h : S512x1.Broadcasts S512x512) (j i : Fin 512) :
    broadcastTo S512x512 x h (ix2 j i) = x (ix2 j (0 : Fin 1)) := by
  refine broadcastTo_apply x h (ix2 j i) (ix2 j (0 : Fin 1)) fun ax => ?_
  match ax with
  | ⟨0, _⟩ => rfl
  | ⟨1, _⟩ => rfl

/-! ## The matrix product -/

/-- The left operand's row coordinate is the result's row coordinate. -/
private theorem lhs_dot_0 (j : S512x512.Idx) (k : dot_S512x128_S512x128_S512x512_1_1_0_0_n_n.contr.Idx) :
    (dot_S512x128_S512x128_S512x512_1_1_0_0_n_n.lhsIdx j k 0).val = (j 0).val := rfl

/-- The left operand's lane coordinate is the summation index. -/
private theorem lhs_dot_1 (j : S512x512.Idx) (k : dot_S512x128_S512x128_S512x512_1_1_0_0_n_n.contr.Idx) :
    (dot_S512x128_S512x128_S512x512_1_1_0_0_n_n.lhsIdx j k 1).val = (k ⟨0, Nat.one_pos⟩).val :=
  dot_S512x128_S512x128_S512x512_1_1_0_0_n_n.lhsIdx_val_of_single rfl j k

/-- The right operand's row coordinate is the result's column coordinate. -/
private theorem rhs_dot_0 (j : S512x512.Idx) (k : dot_S512x128_S512x128_S512x512_1_1_0_0_n_n.contr.Idx) :
    (dot_S512x128_S512x128_S512x512_1_1_0_0_n_n.rhsIdx j k 0).val = (j 1).val := rfl

/-- The right operand's lane coordinate is the summation index. -/
private theorem rhs_dot_1 (j : S512x512.Idx) (k : dot_S512x128_S512x128_S512x512_1_1_0_0_n_n.contr.Idx) :
    (dot_S512x128_S512x128_S512x512_1_1_0_0_n_n.rhsIdx j k 1).val = (k ⟨0, Nat.one_pos⟩).val :=
  dot_S512x128_S512x128_S512x512_1_1_0_0_n_n.rhsIdx_val_of_single rfl j k

/-- The matrix product into the zero splat, at (j, i): the inner product of row j of the left operand and row i of
    the right one. -/
private theorem cross_apply (a b : FVec Ideal S512x128 .f32) (j i : Fin 512) :
    matmul dot_S512x128_S512x128_S512x512_1_1_0_0_n_n none a b (constant S512x512 .f32 0x00000000#32) (ix2 j i)
      = ∑ d : Fin 128, a (ix2 j d) * b (ix2 i d) := by
  refine (Ideal.matmul_constant_zero_apply _ none a b (ix2 j i)).trans ?_
  rw [← Equiv.sum_comp (contrEquiv1 dot_S512x128_S512x128_S512x512_1_1_0_0_n_n 128 rfl rfl).symm]
  refine Finset.sum_congr rfl fun d _ => ?_
  have el : dot_S512x128_S512x128_S512x512_1_1_0_0_n_n.lhsIdx (ix2 j i)
      ((contrEquiv1 dot_S512x128_S512x128_S512x512_1_1_0_0_n_n 128 rfl rfl).symm d) = ix2 j d := by
    funext ax
    match ax with
    | ⟨0, _⟩ => exact Fin.ext (lhs_dot_0 _ _)
    | ⟨1, _⟩ => exact Fin.ext ((lhs_dot_1 _ _).trans (contrEquiv1_symm_val _ 128 rfl rfl d))
  have er : dot_S512x128_S512x128_S512x512_1_1_0_0_n_n.rhsIdx (ix2 j i)
      ((contrEquiv1 dot_S512x128_S512x128_S512x512_1_1_0_0_n_n 128 rfl rfl).symm d) = ix2 i d := by
    funext ax
    match ax with
    | ⟨0, _⟩ => exact Fin.ext (rhs_dot_0 _ _)
    | ⟨1, _⟩ => exact Fin.ext ((rhs_dot_1 _ _).trans (contrEquiv1_symm_val _ 128 rfl rfl d))
  rw [el, er]

/-! ## The distance matrix -/

/-- Entry (j, i) of the masked distance matrix is the specification's entry of the pair. -/
private theorem pay3_apply (v0 v2 : Vec Ideal S1x512x128 .f32) (w1 w2 : BitVec 32)
    (h0 : ∀ (i : Fin 512) (d : Fin 128), ∃ r : ℝ, v0 (ix3 0 i d) = (r : EReal))
    (h2 : ∀ (j : Fin 512) (d : Fin 128), ∃ r : ℝ, v2 (ix3 0 j d) = (r : EReal)) (j i : Fin 512) :
    k0_pay3 (F := Ideal) v0 v2 w1 w2 (ix2 j i)
      = entry (fun i d => v0 (ix3 0 i d)) (fun j d => v2 (ix3 0 j d)) w1 w2 j i := by
  have key := max_norms_sub_cross (fun d => v0 (ix3 0 i d)) (fun d => v2 (ix3 0 j d)) (h0 i) (h2 j)
  beta_reduce at key
  unfold k0_pay3 entry sqd
  simp only [select_apply, broadcast_apply, sqrt_apply, maximumf_apply, subf_apply, addf_apply, mulf_apply]
  rw [pay2_apply, bcast_col_apply, col_cast_apply, norms_apply, broadcastTo_1b_ab_apply, shapeCast_a_1a_apply,
    norms_apply, cross_apply]
  simp only [Ideal.ofBits_def, lit_top, lit_two, Ideal.ofBits_zero_f32, shapeCast_1ab_ab_apply]
  rw [key]

/-! ## The minima and maxima over one axis -/

/-- A least-element reduction over one axis is the fold of the lesser of two, from the accumulator's value, over that
    axis's coordinates. -/
private theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The least entry of row j of a square matrix, from +∞. -/
private theorem rowmin_apply (x : FVec Ideal S512x512 .f32) (h : S512x512.Reduces [1] S512) (hφ : FKind.Formats .f32)
    (hacc : (0x7F800000#32 : BitVec 32) = 0x7F800000#32) (j : Fin 512) :
    multiReduction (F := Ideal) .minimumf [1] S512 x 0x7F800000#32 h hφ hacc (ix1 j)
      = (Finset.univ : Finset (Fin 512)).fold min ⊤ fun i => x (ix2 j i) := by
  refine (multiReduction_minimumf_single x _ h hφ hacc (ix1 j)).trans ?_
  show (Finset.univ : Finset (Fin 512)).fold min (Ideal.ofBits .f32 0x7F800000#32) (x ∘ h.lift (ix1 j)) = _
  rw [lit_top]
  refine Finset.fold_congr fun i _ => ?_
  have e : h.lift (ix1 j) i = ix2 j i := by
    funext a
    match a with
    | ⟨0, _⟩ => rfl
    | ⟨1, _⟩ => rfl
  exact congrArg x e

/-- The least entry of column i of a square matrix, from +∞. -/
private theorem colmin_apply (x : FVec Ideal S512x512 .f32) (h : S512x512.Reduces [0] S512) (hφ : FKind.Formats .f32)
    (hacc : (0x7F800000#32 : BitVec 32) = 0x7F800000#32) (i : Fin 512) :
    multiReduction (F := Ideal) .minimumf [0] S512 x 0x7F800000#32 h hφ hacc (ix1 i)
      = (Finset.univ : Finset (Fin 512)).fold min ⊤ fun j => x (ix2 j i) := by
  refine (multiReduction_minimumf_single x _ h hφ hacc (ix1 i)).trans ?_
  show (Finset.univ : Finset (Fin 512)).fold min (Ideal.ofBits .f32 0x7F800000#32) (x ∘ h.lift (ix1 i)) = _
  rw [lit_top]
  refine Finset.fold_congr fun j _ => ?_
  have e : h.lift (ix1 i) j = ix2 j i := by
    funext a
    match a with
    | ⟨0, _⟩ => rfl
    | ⟨1, _⟩ => rfl
  exact congrArg x e

/-- The greatest entry of the one row of a one-row matrix, from −∞. -/
private theorem rowmax_apply (x : FVec Ideal S1x512 .f32) (h : S1x512.Reduces [1] S1) (hφ : FKind.Formats .f32)
    (hacc : (0xFF800000#32 : BitVec 32) = 0xFF800000#32) (u : Fin 1) :
    multiReduction (F := Ideal) .maximumf [1] S1 x 0xFF800000#32 h hφ hacc (ix1 u)
      = (Finset.univ : Finset (Fin 512)).fold max ⊥ fun k => x (ix2 u k) := by
  refine (Ideal.multiReduction_maximumf_single x _ h hφ hacc (ix1 u)).trans ?_
  show (Finset.univ : Finset (Fin 512)).fold max (Ideal.ofBits .f32 0xFF800000#32) (x ∘ h.lift (ix1 u)) = _
  rw [lit_bot]
  refine Finset.fold_congr fun k _ => ?_
  have e : h.lift (ix1 u) k = ix2 u k := by
    funext a
    match a with
    | ⟨0, _⟩ => rfl
    | ⟨1, _⟩ => rfl
  exact congrArg x e

/-- The one entry of a one-entry vector seen as a 1 × 1 matrix. -/
private theorem extract_cast_apply {α : Type} (x : S1.Idx → α) (h : S1.ShapeCasts S1x1)
    (hp : ∀ a, (![0, 0] : Fin 2 → Nat) a < S1x1.size a) :
    extractAt ![0, 0] (shapeCast S1x1 x h) hp = x (ix1 (0 : Fin 1)) := by
  have e : (fun a => (⟨(![0, 0] : Fin 2 → Nat) a, hp a⟩ : Fin (S1x1.size a))) = ix2 (0 : Fin 1) (0 : Fin 1) := by
    funext a
    match a with
    | ⟨0, _⟩ => rfl
    | ⟨1, _⟩ => rfl
  show shapeCast S1x1 x h (fun a => ⟨(![0, 0] : Fin 2 → Nat) a, hp a⟩) = _
  rw [e]
  exact shapeCast_a_1a_apply x h 0 0

/-! ## The row and column minima of the distance matrix -/

/-- The least masked distance of row j is the specification's row minimum. -/
private theorem pay4_apply (v0 v2 : Vec Ideal S1x512x128 .f32) (w1 w2 : BitVec 32)
    (h0 : ∀ (i : Fin 512) (d : Fin 128), ∃ r : ℝ, v0 (ix3 0 i d) = (r : EReal))
    (h2 : ∀ (j : Fin 512) (d : Fin 128), ∃ r : ℝ, v2 (ix3 0 j d) = (r : EReal)) (j : Fin 512) :
    k0_pay4 (F := Ideal) v0 v2 w1 w2 (ix1 j)
      = rowMin (fun i d => v0 (ix3 0 i d)) (fun j d => v2 (ix3 0 j d)) w1 w2 j := by
  unfold k0_pay4 rowMin
  refine (rowmin_apply _ _ _ _ j).trans ?_
  exact Finset.fold_congr fun i _ => pay3_apply v0 v2 w1 w2 h0 h2 j i

/-- The least masked distance of column i is the specification's column minimum. -/
private theorem pay5_apply (v0 v2 : Vec Ideal S1x512x128 .f32) (w1 w2 : BitVec 32)
    (h0 : ∀ (i : Fin 512) (d : Fin 128), ∃ r : ℝ, v0 (ix3 0 i d) = (r : EReal))
    (h2 : ∀ (j : Fin 512) (d : Fin 128), ∃ r : ℝ, v2 (ix3 0 j d) = (r : EReal)) (i : Fin 512) :
    k0_pay5 (F := Ideal) v0 v2 w1 w2 (ix1 i)
      = colMin (fun i d => v0 (ix3 0 i d)) (fun j d => v2 (ix3 0 j d)) w1 w2 i := by
  unfold k0_pay5 colMin
  refine (colmin_apply _ _ _ _ i).trans ?_
  exact Finset.fold_congr fun j _ => pay3_apply v0 v2 w1 w2 h0 h2 j i

/-! ## The rows and columns with no live pair -/

/-- The least indicator of row j of a matrix of bits is positive exactly when every bit of the row is set. -/
private theorem no_live_row (c : IVec S512x512 1) (h : S512x512.Reduces [1] S512) (hφ : FKind.Formats .f32)
    (hacc : (0x7F800000#32 : BitVec 32) = 0x7F800000#32) (j : Fin 512) :
    cmpf .ogt
        (multiReduction (F := Ideal) .minimumf [1] S512
          (select c (broadcast S512x512 (Scalar.ofBits .f32 0x3F800000#32))
            (broadcast S512x512 (Scalar.ofBits .f32 0x00000000#32))) 0x7F800000#32 h hφ hacc)
        (broadcast S512 (Scalar.ofBits .f32 0x00000000#32)) (ix1 j)
      = (Finset.univ : Finset (Fin 512)).fold IntOp.andi 1#1 fun i => c (ix2 j i) := by
  refine Eq.trans ?_ (indicator_min_pos fun i => c (ix2 j i))
  rw [cmpf_apply, Ideal.cmpf_def, rowmin_apply, broadcast_apply]
  simp only [select_apply, broadcast_apply, Ideal.ofBits_def, Ideal.ofBits_one_f32, Ideal.ofBits_zero_f32]

/-- The least indicator of column i of a matrix of bits is positive exactly when every bit of the column is set. -/
private theorem no_live_col (c : IVec S512x512 1) (h : S512x512.Reduces [0] S512) (hφ : FKind.Formats .f32)
    (hacc : (0x7F800000#32 : BitVec 32) = 0x7F800000#32) (i : Fin 512) :
    cmpf .ogt
        (multiReduction (F := Ideal) .minimumf [0] S512
          (select c (broadcast S512x512 (Scalar.ofBits .f32 0x3F800000#32))
            (broadcast S512x512 (Scalar.ofBits .f32 0x00000000#32))) 0x7F800000#32 h hφ hacc)
        (broadcast S512 (Scalar.ofBits .f32 0x00000000#32)) (ix1 i)
      = (Finset.univ : Finset (Fin 512)).fold IntOp.andi 1#1 fun j => c (ix2 j i) := by
  refine Eq.trans ?_ (indicator_min_pos fun j => c (ix2 j i))
  rw [cmpf_apply, Ideal.cmpf_def, colmin_apply, broadcast_apply]
  simp only [select_apply, broadcast_apply, Ideal.ofBits_def, Ideal.ofBits_one_f32, Ideal.ofBits_zero_f32]

/-- The bit of row j: every pair of the row is switched off. -/
private theorem pay6_apply (w1 w2 : BitVec 32) (j : Fin 512) :
    k0_pay6 (F := Ideal) w1 w2 (ix1 j) = rowOff w1 w2 j := by
  unfold k0_pay6 rowOff
  refine (no_live_row _ _ _ _ j).trans ?_
  exact Finset.fold_congr fun i _ => pay2_apply w1 w2 j i

/-- The bit of column i: every pair of the column is switched off. -/
private theorem colbit_apply (w1 w2 : BitVec 32) (h : S512x512.Reduces [0] S512) (hφ : FKind.Formats .f32)
    (hacc : (0x7F800000#32 : BitVec 32) = 0x7F800000#32) (i : Fin 512) :
    cmpf .ogt
        (multiReduction (F := Ideal) .minimumf [0] S512
          (select (k0_pay2 (F := Ideal) w1 w2) (broadcast S512x512 (Scalar.ofBits .f32 0x3F800000#32))
            (broadcast S512x512 (Scalar.ofBits .f32 0x00000000#32))) 0x7F800000#32 h hφ hacc)
        (broadcast S512 (Scalar.ofBits .f32 0x00000000#32)) (ix1 i)
      = colOff w1 w2 i := by
  unfold colOff
  refine (no_live_col _ h hφ hacc i).trans ?_
  exact Finset.fold_congr fun j _ => pay2_apply w1 w2 j i

/-! ## The greatest row value and the greatest column value -/

/-- The values m, replaced by 0 where the bit c is set, laid in one row; the greatest of the row, from −∞, read out of
    the 1 × 1 matrix it is kept in. -/
private theorem top_apply (c : IVec S512 1) (m : FVec Ideal S512 .f32) (hc : S512.ShapeCasts S1x512)
    (hr : S1x512.Reduces [1] S1) (hφ : FKind.Formats .f32) (hacc : (0xFF800000#32 : BitVec 32) = 0xFF800000#32)
    (h1 : S1.ShapeCasts S1x1) (hp : ∀ a, (![0, 0] : Fin 2 → Nat) a < S1x1.size a) :
    extractAt ![0, 0]
        (shapeCast S1x1
          (multiReduction (F := Ideal) .maximumf [1] S1
            (shapeCast S1x512 (select c (broadcast S512 (Scalar.ofBits .f32 0x00000000#32)) m) hc)
            0xFF800000#32 hr hφ hacc) h1) hp
      = (Finset.univ : Finset (Fin 512)).fold max ⊥ fun k => Scalar.select (c (ix1 k)) 0 (m (ix1 k)) := by
  refine (extract_cast_apply _ h1 hp).trans ?_
  refine (rowmax_apply _ hr hφ hacc 0).trans ?_
  refine Finset.fold_congr fun k _ => ?_
  refine (shapeCast_a_1a_apply _ hc 0 k).trans ?_
  show Scalar.select (c (ix1 k)) (Ideal.ofBits .f32 0x00000000#32) (m (ix1 k)) = _
  rw [Ideal.ofBits_zero_f32]

/-! ## The stored element -/

/-- The one stored element of the body, for real points, is the distance of the entry. -/
theorem payload_eq_dist (v0 v2 : Vec Ideal S1x512x128 .f32) (w1 w2 : BitVec 32)
    (h0 : ∀ (i : Fin 512) (d : Fin 128), ∃ r : ℝ, v0 (ix3 0 i d) = (r : EReal))
    (h2 : ∀ (j : Fin 512) (d : Fin 128), ∃ r : ℝ, v2 (ix3 0 j d) = (r : EReal)) :
    k0_pay1 (F := Ideal) (k0_pay2 (F := Ideal) w1 w2) (k0_pay4 (F := Ideal) v0 v2 w1 w2) (k0_pay5 (F := Ideal) v0 v2 w1 w2)
        (k0_pay6 (F := Ideal) w1 w2) (ix1 0)
      = dist (fun i d => v0 (ix3 0 i d)) (fun j d => v2 (ix3 0 j d)) w1 w2 := by
  unfold k0_pay1 dist
  refine (broadcast_apply _ _).trans ?_
  refine (Ideal.scalar_maximumf_def _ _).trans ?_
  refine congrArg₂ max ?_ ?_
  · refine (top_apply _ _ _ _ _ _ _ _).trans ?_
    refine Finset.fold_congr fun j _ => ?_
    rw [pay6_apply, pay4_apply v0 v2 w1 w2 h0 h2]
  · refine (top_apply _ _ _ _ _ _ _ _).trans ?_
    refine Finset.fold_congr fun i _ => ?_
    rw [colbit_apply, pay5_apply v0 v2 w1 w2 h0 h2]

end Cert.Hausdorff

end
-- ==== Proof.IdealBlocks.lean ====
/-
  The kernel's inputs at a grid point, read off the launch memory, and the point's number as the distance of the
  point's batch entry.

  Grid point t is batch entry t: the first window's block at t is rows [t, t+1) of the first point-set array (its
  block index is the point and the block is one whole [512, 128] slab), likewise the second's, and the size words
  the body loads are entries t of the two size tables.  At the ideal instance, for real point coordinates, the
  number the body stores at t is therefore the distance of entry t.
-/
import proofs.«431092_j45397804319098_1_alg».proof.Proof.IdealFrame
import proofs.«431092_j45397804319098_1_alg».proof.Proof.KernelPayload

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

variable (m : (ℓ : Loc nD τ sig) → Buf (Elt F) ℓ)

/-- The first window's block index at point t is (t, 0, 0). -/
private theorem index0 : ∀ t : Fin grid0.N, cc0_transform_0 (grid0.coords t) = ![t.val, 0, 0] := by decide +kernel

/-- The second window's block index at point t is (t, 0, 0). -/
private theorem index1 : ∀ t : Fin grid0.N, cc0_transform_1 (grid0.coords t) = ![t.val, 0, 0] := by decide +kernel

/-- A grid point as a batch entry. -/
abbrev entryOf (t : Fin (cfgM m).N) : Fin 8 := ⟨t.val, t.isLt⟩

/-- The first window's block at point t is batch entry t of the first point-set array. -/
theorem iblk0_apply (c : Dev nD) (t : Fin (cfgM m).N) (i : Fin 512) (d : Fin 128) :
    (iblk m c 0 t : Vec F S1x512x128 .f32) (ix3 0 i d) = m ((c.tc : Thread nD τ).loc main_arg0) (ix3 (entryOf m t) i d) := by
  -- an element of a block sits in the array, on each axis, at block index × block size + its own coordinate
  unfold iblk
  show V m c main_arg0 ((((cfgM m).win 0).blk t).view.emb (ix3 0 i d)) = V m c main_arg0 (ix3 (entryOf m t) i d)
  refine congrArg _ (funext fun a => Fin.ext ?_)
  have e := index0 t
  match a with
  | ⟨0, _⟩ =>
    show cc0_transform_0 (grid0.coords t) 0 * 1 + 1 * 0 = t.val
    rw [e]; show t.val * 1 + 1 * 0 = t.val; omega
  | ⟨1, _⟩ =>
    show cc0_transform_0 (grid0.coords t) 1 * 512 + 1 * i.val = i.val
    rw [e]; show 0 * 512 + 1 * i.val = i.val; omega
  | ⟨2, _⟩ =>
    show cc0_transform_0 (grid0.coords t) 2 * 128 + 1 * d.val = d.val
    rw [e]; show 0 * 128 + 1 * d.val = d.val; omega

/-- The second window's block at point t is batch entry t of the second point-set array. -/
theorem iblk1_apply (c : Dev nD) (t : Fin (cfgM m).N) (j : Fin 512) (d : Fin 128) :
    (iblk m c 1 t : Vec F S1x512x128 .f32) (ix3 0 j d) = m ((c.tc : Thread nD τ).loc main_arg3) (ix3 (entryOf m t) j d) := by
  unfold iblk
  show V m c main_arg3 ((((cfgM m).win 1).blk t).view.emb (ix3 0 j d)) = V m c main_arg3 (ix3 (entryOf m t) j d)
  refine congrArg _ (funext fun a => Fin.ext ?_)
  have e := index1 t
  match a with
  | ⟨0, _⟩ =>
    show cc0_transform_1 (grid0.coords t) 0 * 1 + 1 * 0 = t.val
    rw [e]; show t.val * 1 + 1 * 0 = t.val; omega
  | ⟨1, _⟩ =>
    show cc0_transform_1 (grid0.coords t) 1 * 512 + 1 * j.val = j.val
    rw [e]; show 0 * 512 + 1 * j.val = j.val; omega
  | ⟨2, _⟩ =>
    show cc0_transform_1 (grid0.coords t) 2 * 128 + 1 * d.val = d.val
    rw [e]; show 0 * 128 + 1 * d.val = d.val; omega

/-- The first size word the body loads at point t is entry t of the first size table. -/
theorem word0_eq (c : Dev nD) (t : Fin (cfgM m).N) :
    wordAt (M := tbM0_0) c (grid0.coords t) (tbl m 0) = m ((c.tc : Thread nD τ).loc main_arg2) (ix1 (entryOf m t)) := by
  -- the table is the whole array, read at the one-word rectangle whose offset is the point's coordinate
  unfold wordAt
  obtain rfl : c = 0 := Subsingleton.elim _ _
  refine (congrArg (m _) (?_ : (Rect.unit (s := S8) (k0_off1 (grid0.coords t)) S1.size (k0_off1_inb (grid0.coords t))).toLoadRect.idx (Shape.Idx.first (numel1_S1.symm ▸ Nat.one_pos)) = ix1 (entryOf m t)))
  refine funext fun a => Fin.ext ?_
  match a with
  | ⟨0, _⟩ =>
    show k0_off1 (grid0.coords t) 0 + 1 * 0 = t.val
    rw [k0_off1_eq, coords_val]; rfl

/-- The second size word the body loads at point t is entry t of the second size table. -/
theorem word1_eq (c : Dev nD) (t : Fin (cfgM m).N) :
    wordAt (M := tbM0_1) c (grid0.coords t) (tbl m 1) = m ((c.tc : Thread nD τ).loc main_arg5) (ix1 (entryOf m t)) := by
  unfold wordAt
  obtain rfl : c = 0 := Subsingleton.elim _ _
  refine (congrArg (m _) (?_ : (Rect.unit (s := S8) (k0_off1 (grid0.coords t)) S1.size (k0_off1_inb (grid0.coords t))).toLoadRect.idx (Shape.Idx.first (numel1_S1.symm ▸ Nat.one_pos)) = ix1 (entryOf m t)))
  refine funext fun a => Fin.ext ?_
  match a with
  | ⟨0, _⟩ =>
    show k0_off1 (grid0.coords t) 0 + 1 * 0 = t.val
    rw [k0_off1_eq, coords_val]; rfl

/-- At the ideal instance, for real point coordinates, point t's number is the distance of batch entry t. -/
theorem dval_eq_dist (m : (ℓ : Loc nD τ sig) → Buf (Elt Ideal) ℓ) (c : Dev nD) (t : Fin (cfgM m).N)
    (h0 : ∀ i, ∃ r : ℝ, m ((c.tc : Thread nD τ).loc main_arg0) i = (r : EReal))
    (h3 : ∀ i, ∃ r : ℝ, m ((c.tc : Thread nD τ).loc main_arg3) i = (r : EReal)) :
    dval (F := Ideal) m c t
      = Cert.Hausdorff.dist (fun i d => m ((c.tc : Thread nD τ).loc main_arg0) (ix3 (entryOf m t) i d))
          (fun j d => m ((c.tc : Thread nD τ).loc main_arg3) (ix3 (entryOf m t) j d))
          (m ((c.tc : Thread nD τ).loc main_arg2) (ix1 (entryOf m t))) (m ((c.tc : Thread nD τ).loc main_arg5) (ix1 (entryOf m t))) := by
  have hp := Cert.Hausdorff.payload_eq_dist (iblk m c 0 t) (iblk m c 1 t)
    (wordAt (M := tbM0_0) c (grid0.coords t) (tbl m 0)) (wordAt (M := tbM0_1) c (grid0.coords t) (tbl m 1))
    (fun i d => by obtain ⟨r, hr⟩ := h0 (ix3 (entryOf m t) i d); exact ⟨r, (iblk0_apply m c t i d).trans hr⟩)
    (fun j d => by obtain ⟨r, hr⟩ := h3 (ix3 (entryOf m t) j d); exact ⟨r, (iblk1_apply m c t j d).trans hr⟩)
  have hi : (i1 : S1.Idx) = ix1 0 := s1_idx_eq _ _
  unfold dval stored
  rw [hi]
  refine hp.trans ?_
  rw [word0_eq, word1_eq]
  have e0 : (fun (i : Fin 512) (d : Fin 128) => (iblk m c 0 t : Vec Ideal S1x512x128 .f32) (ix3 0 i d))
      = fun i d => m ((c.tc : Thread nD τ).loc main_arg0) (ix3 (entryOf m t) i d) :=
    funext fun i => funext fun d => iblk0_apply m c t i d
  have e1 : (fun (j : Fin 512) (d : Fin 128) => (iblk m c 1 t : Vec Ideal S1x512x128 .f32) (ix3 0 j d))
      = fun j d => m ((c.tc : Thread nD τ).loc main_arg3) (ix3 (entryOf m t) j d) :=
    funext fun j => funext fun d => iblk1_apply m c t j d
  exact congrArg₂ (fun X1 X2 => Cert.Hausdorff.dist X1 X2 _ _) e0 e1

end Cert.KernelIdeal.Hand

end
-- ==== Proof.RefRead.lean ====
/-
  What the reference computes for one batch entry, read as the distance of that entry.

  The reference forms all differences of the entry's points, sums their squares over the coordinates, takes
  roots, switches pairs off against the two sizes, takes the row and column minima, replaces rows and columns
  with no live pair by 0, and returns the greater of the two maxima: `Cert.Hausdorff.dist`, for any extended
  reals (no finiteness is needed on this side).
-/
import proofs.«431092_j45397804319098_1_alg».proof.Proof.ReferenceReadP
import proofs.«431092_j45397804319098_1_alg».proof.Proof.Spec

noncomputable section

open scoped BigOperators

namespace Cert.Hausdorff

open Idealize.ShloMosaic Idealize.ShloMosaic.ValueIdx Cert.ReferenceIdeal Cert.ReferenceIdeal.ReadP

/-- The word of +∞. -/
private theorem ofBits_top_f32 : Ideal.ofBits .f32 0x7F800000#32 = ⊤ := by simp [Ideal.ofBits, Ideal.ieee]

/-- The word of −∞. -/
private theorem ofBits_bot_f32 : Ideal.ofBits .f32 0xFF800000#32 = ⊥ := by simp [Ideal.ofBits, Ideal.ieee]

/-- The mask at the pair (j, i) of entry `b`: the coordinate on the last axis, i, is compared with the first size
    and the coordinate on the middle axis, j, with the second; the two comparisons are joined by "or". -/
private theorem mask_apply (x2 x5 : (⟨S8, .i32⟩ : BufTy).Contents (Elt Ideal)) (b : Fin 8) (j i : Fin 512) :
    val_main_v22 (F := Ideal) x2 x5 (ix3 b j i) = off (x2 (ix1 b)) (x5 (ix1 b)) j i := by
  have e2 : idx_main_v10 (idx_main_v12 (idx_main_v20 (ix3 b j i))) = ix1 b :=
    funext fun a => Fin.ext (by match a with | ⟨0, _⟩ => rfl)
  have e5 : idx_main_v16 (idx_main_v18 (idx_main_v21 (ix3 b j i))) = ix1 b :=
    funext fun a => Fin.ext (by match a with | ⟨0, _⟩ => rfl)
  rw [val_main_v22_apply, val_main_v20_apply, val_main_v21_apply, val_main_v13_apply, val_main_v19_apply,
    val_main_v11_apply, val_main_v12_apply, val_main_v17_apply, val_main_v18_apply,
    val_main_v9_apply, val_main_v10_apply, val_main_v15_apply, val_main_v16_apply,
    val_main_v8_apply, val_main_v14_apply, e2, e5]
  rfl

/-- The sum of squares at the pair (j, i): the difference tensor at (b, j, i, d) is point i of the first set less
    point j of the second, coordinate d; the sum over d starts from 0. -/
private theorem sqd_apply (x0 x3 : (⟨S8x512x128, .f32⟩ : BufTy).Contents (Elt Ideal)) (b : Fin 8) (j i : Fin 512) :
    val_main_v6 (F := Ideal) x0 x3 (ix3 b j i)
      = sqd (fun i d => x0 (ix3 b i d)) (fun j d => x3 (ix3 b j d)) j i := by
  rw [val_main_v6_apply, val_main_cst_apply, Ideal.ofBits_def, Ideal.ofBits_zero_f32, zero_add]
  unfold sqd
  refine Finset.sum_congr rfl fun d _ => ?_
  have e0 : idx_main_v0 (idx_main_v2 (idx_main_v6 (ix3 b j i) d)) = ix3 b i d :=
    funext fun a => Fin.ext (by match a with | ⟨0, _⟩ => rfl | ⟨1, _⟩ => rfl | ⟨2, _⟩ => rfl)
  have e1 : idx_main_v1 (idx_main_v3 (idx_main_v6 (ix3 b j i) d)) = ix3 b j d :=
    funext fun a => Fin.ext (by match a with | ⟨0, _⟩ => rfl | ⟨1, _⟩ => rfl | ⟨2, _⟩ => rfl)
  rw [val_main_v5_apply, val_main_v4_apply, val_main_v2_apply, val_main_v3_apply, val_main_v0_apply,
    val_main_v1_apply, Ideal.mulf_def, Ideal.subf_def, e0, e1]

/-- The matrix at the pair (j, i): +∞ where the mask is set, else the root of the sum of squares. -/
private theorem entry_apply (x0 x3 : (⟨S8x512x128, .f32⟩ : BufTy).Contents (Elt Ideal))
    (x2 x5 : (⟨S8, .i32⟩ : BufTy).Contents (Elt Ideal)) (b : Fin 8) (j i : Fin 512) :
    val_main_v23 (F := Ideal) x0 x2 x3 x5 (ix3 b j i)
      = entry (fun i d => x0 (ix3 b i d)) (fun j d => x3 (ix3 b j d)) (x2 (ix1 b)) (x5 (ix1 b)) j i := by
  rw [val_main_v23_apply, mask_apply, val_main_call0_v1_apply, val_main_call0_v0_apply, val_main_cst_0_apply,
    val_main_v7_apply, Ideal.hostUnary_sqrt_def, sqd_apply, Ideal.ofBits_def, ofBits_top_f32]
  rfl

/-- Over the row index (b, j), the coordinate i put on the last axis gives the pair's index (b, j, i). -/
private theorem lift_d2 (h : S8x512x512.Reduces [2] S8x512) (b : Fin 8) (j i : Fin 512) :
    h.lift (ix2 b j) i = ix3 b j i :=
  funext fun a => Fin.ext (by match a with | ⟨0, _⟩ => rfl | ⟨1, _⟩ => rfl | ⟨2, _⟩ => rfl)

/-- Over the column index (b, i), the coordinate j put on the middle axis gives the pair's index (b, j, i). -/
private theorem lift_d1 (h : S8x512x512.Reduces [1] S8x512) (b : Fin 8) (i j : Fin 512) :
    h.lift (ix2 b i) j = ix3 b j i :=
  funext fun a => Fin.ext (by match a with | ⟨0, _⟩ => rfl | ⟨1, _⟩ => rfl | ⟨2, _⟩ => rfl)

/-- Over the batch index b, the coordinate j put on the last axis gives the index (b, j). -/
private theorem lift_b (h : S8x512.Reduces [1] S8) (b : Fin 8) (j : Fin 512) :
    h.lift (ix1 b) j = ix2 b j :=
  funext fun a => Fin.ext (by match a with | ⟨0, _⟩ => rfl | ⟨1, _⟩ => rfl)

/-- The minimum along the last axis is the least entry of row j, from +∞. -/
private theorem rowMin_apply (x0 x3 : (⟨S8x512x128, .f32⟩ : BufTy).Contents (Elt Ideal))
    (x2 x5 : (⟨S8, .i32⟩ : BufTy).Contents (Elt Ideal)) (b : Fin 8) (j : Fin 512) :
    val_main_v24 (F := Ideal) x0 x2 x3 x5 (ix2 b j)
      = rowMin (fun i d => x0 (ix3 b i d)) (fun j d => x3 (ix3 b j d)) (x2 (ix1 b)) (x5 (ix1 b)) j := by
  unfold val_main_v24
  rw [Host.reduce_eq_fold_single FloatOps.minimumf _ _ Gen.reducesTo_S8x512x512_S8x512_d2 (by decide) Gen.h_S_,
    val_main_cst_1_apply, Ideal.ofBits_def, ofBits_top_f32]
  unfold rowMin
  refine Finset.fold_congr fun i _ => ?_
  exact (congrArg _ (lift_d2 _ b j i)).trans (entry_apply x0 x3 x2 x5 b j i)

/-- The minimum along the middle axis is the least entry of column i, from +∞. -/
private theorem colMin_apply (x0 x3 : (⟨S8x512x128, .f32⟩ : BufTy).Contents (Elt Ideal))
    (x2 x5 : (⟨S8, .i32⟩ : BufTy).Contents (Elt Ideal)) (b : Fin 8) (i : Fin 512) :
    val_main_v25 (F := Ideal) x0 x2 x3 x5 (ix2 b i)
      = colMin (fun i d => x0 (ix3 b i d)) (fun j d => x3 (ix3 b j d)) (x2 (ix1 b)) (x5 (ix1 b)) i := by
  unfold val_main_v25
  rw [Host.reduce_eq_fold_single FloatOps.minimumf _ _ Gen.reducesTo_S8x512x512_S8x512_d1 (by decide) Gen.h_S_,
    val_main_cst_2_apply, Ideal.ofBits_def, ofBits_top_f32]
  unfold colMin
  refine Finset.fold_congr fun j _ => ?_
  exact (congrArg _ (lift_d1 _ b i j)).trans (entry_apply x0 x3 x2 x5 b j i)

/-- The "and" of the mask along the last axis says every pair of row j is switched off; it starts from the bit 1. -/
private theorem rowOff_apply (x2 x5 : (⟨S8, .i32⟩ : BufTy).Contents (Elt Ideal)) (b : Fin 8) (j : Fin 512) :
    val_main_v26 (F := Ideal) x2 x5 (ix2 b j) = rowOff (x2 (ix1 b)) (x5 (ix1 b)) j := by
  unfold val_main_v26
  rw [Host.reduce_eq_fold_single IntOp.andi _ _ Gen.reducesTo_S8x512x512_S8x512_d2 (by decide) Gen.h_S_,
    val_main_c_apply]
  unfold rowOff
  refine Finset.fold_congr fun i _ => ?_
  exact (congrArg _ (lift_d2 _ b j i)).trans (mask_apply x2 x5 b j i)

/-- The "and" of the mask along the middle axis says every pair of column i is switched off. -/
private theorem colOff_apply (x2 x5 : (⟨S8, .i32⟩ : BufTy).Contents (Elt Ideal)) (b : Fin 8) (i : Fin 512) :
    val_main_v28 (F := Ideal) x2 x5 (ix2 b i) = colOff (x2 (ix1 b)) (x5 (ix1 b)) i := by
  unfold val_main_v28
  rw [Host.reduce_eq_fold_single IntOp.andi _ _ Gen.reducesTo_S8x512x512_S8x512_d1 (by decide) Gen.h_S_,
    val_main_c_4_apply]
  unfold colOff
  refine Finset.fold_congr fun j _ => ?_
  exact (congrArg _ (lift_d1 _ b i j)).trans (mask_apply x2 x5 b j i)

/-- The value of row j: 0 when the whole row is switched off, else the row's least entry. -/
private theorem rowVal_apply (x0 x3 : (⟨S8x512x128, .f32⟩ : BufTy).Contents (Elt Ideal))
    (x2 x5 : (⟨S8, .i32⟩ : BufTy).Contents (Elt Ideal)) (b : Fin 8) (j : Fin 512) :
    val_main_v27 (F := Ideal) x0 x2 x3 x5 (ix2 b j)
      = Scalar.select (rowOff (x2 (ix1 b)) (x5 (ix1 b)) j) 0
          (rowMin (fun i d => x0 (ix3 b i d)) (fun j d => x3 (ix3 b j d)) (x2 (ix1 b)) (x5 (ix1 b)) j) := by
  rw [val_main_v27_apply, rowOff_apply, rowMin_apply, val_main_call1_v1_apply, val_main_call1_v0_apply,
    val_main_cst_3_apply, Ideal.ofBits_def, Ideal.ofBits_zero_f32]

/-- The value of column i: 0 when the whole column is switched off, else the column's least entry. -/
private theorem colVal_apply (x0 x3 : (⟨S8x512x128, .f32⟩ : BufTy).Contents (Elt Ideal))
    (x2 x5 : (⟨S8, .i32⟩ : BufTy).Contents (Elt Ideal)) (b : Fin 8) (i : Fin 512) :
    val_main_v29 (F := Ideal) x0 x2 x3 x5 (ix2 b i)
      = Scalar.select (colOff (x2 (ix1 b)) (x5 (ix1 b)) i) 0
          (colMin (fun i d => x0 (ix3 b i d)) (fun j d => x3 (ix3 b j d)) (x2 (ix1 b)) (x5 (ix1 b)) i) := by
  rw [val_main_v29_apply, colOff_apply, colMin_apply, val_main_call2_v1_apply, val_main_call2_v0_apply,
    val_main_cst_5_apply, Ideal.ofBits_def, Ideal.ofBits_zero_f32]

/-- The greatest row value, from −∞. -/
private theorem rowMax_apply (x0 x3 : (⟨S8x512x128, .f32⟩ : BufTy).Contents (Elt Ideal))
    (x2 x5 : (⟨S8, .i32⟩ : BufTy).Contents (Elt Ideal)) (b : Fin 8) :
    val_main_v30 (F := Ideal) x0 x2 x3 x5 (ix1 b)
      = (Finset.univ : Finset (Fin 512)).fold max ⊥ fun j =>
          Scalar.select (rowOff (x2 (ix1 b)) (x5 (ix1 b)) j) 0
            (rowMin (fun i d => x0 (ix3 b i d)) (fun j d => x3 (ix3 b j d)) (x2 (ix1 b)) (x5 (ix1 b)) j) := by
  unfold val_main_v30
  rw [Host.reduce_eq_fold_single FloatOps.maximumf _ _ Gen.reducesTo_S8x512_S8_d1 (by decide) Gen.h_S_,
    val_main_cst_6_apply, Ideal.ofBits_def, ofBits_bot_f32]
  refine Finset.fold_congr fun j _ => ?_
  rw [Function.comp_apply, lift_b _ b j]
  exact rowVal_apply x0 x3 x2 x5 b j

/-- The greatest column value, from −∞. -/
private theorem colMax_apply (x0 x3 : (⟨S8x512x128, .f32⟩ : BufTy).Contents (Elt Ideal))
    (x2 x5 : (⟨S8, .i32⟩ : BufTy).Contents (Elt Ideal)) (b : Fin 8) :
    val_main_v31 (F := Ideal) x0 x2 x3 x5 (ix1 b)
      = (Finset.univ : Finset (Fin 512)).fold max ⊥ fun i =>
          Scalar.select (colOff (x2 (ix1 b)) (x5 (ix1 b)) i) 0
            (colMin (fun i d => x0 (ix3 b i d)) (fun j d => x3 (ix3 b j d)) (x2 (ix1 b)) (x5 (ix1 b)) i) := by
  unfold val_main_v31
  rw [Host.reduce_eq_fold_single FloatOps.maximumf _ _ Gen.reducesTo_S8x512_S8_d1 (by decide) Gen.h_S_,
    val_main_cst_7_apply, Ideal.ofBits_def, ofBits_bot_f32]
  refine Finset.fold_congr fun i _ => ?_
  rw [Function.comp_apply, lift_b _ b i]
  exact colVal_apply x0 x3 x2 x5 b i

/-- The reference's result at batch entry `b` is the distance of that entry's data. -/
theorem ref_eq_dist (x0 x3 : (⟨S8x512x128, .f32⟩ : BufTy).Contents (Elt Ideal)) (x2 x5 : (⟨S8, .i32⟩ : BufTy).Contents (Elt Ideal)) (b : Fin 8) :
    val_main_v32 (F := Ideal) x0 x2 x3 x5 (ix1 b)
      = dist (fun i d => x0 (ix3 b i d)) (fun j d => x3 (ix3 b j d)) (x2 (ix1 b)) (x5 (ix1 b)) := by
  rw [val_main_v32_apply, Ideal.maximumf_def, rowMax_apply, colMax_apply]
  rfl

end Cert.Hausdorff

end
-- ==== Proof.Finite.lean ====
/-
  The precondition, decoded: when the printed predicate "every float input is finite" is all ones, every
  coordinate of both point sets is a real number (neither infinity).  The predicate compares the absolute value of
  every entry with +∞ and and-reduces the comparisons over each array.
-/
import proofs.«431092_j45397804319098_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Hausdorff

open Idealize.ShloMosaic Idealize.ShloMosaic.ValueIdx Cert.Pre_finite_inputs

/-- The word of +∞. -/
private theorem ofBits_top_f32 : Ideal.ofBits .f32 0x7F800000#32 = ⊤ := by simp [Ideal.ofBits, Ideal.ieee]

/-- An extended real whose absolute value max x (−x) is strictly below +∞ is a real number: at −∞ and at +∞ the
    absolute value is +∞ itself. -/
private theorem real_of_abs_lt_top (x : EReal) (hx : Ideal.cmp .olt (max x (-x)) ⊤ = 1#1) :
    ∃ r : ℝ, x = (r : EReal) := by
  induction x using EReal.rec with
  | bot => exact absurd hx (by simp [Ideal.cmp])
  | coe r => exact ⟨r, rfl⟩
  | top => exact absurd hx (by simp [Ideal.cmp])

/-- One comparison word of the predicate, at an index: the absolute value of the entry against +∞. -/
private theorem cmp_word_apply [Cert.Pre_finite_inputs.Facts] (x : FVec Ideal S8x512x128 .f32) (i : S8x512x128.Idx) :
    cmpf .olt (Host.absf x)
        (broadcastInDim S8x512x128 ![] Facts.bcast_S_S8x512x128 (constant (F := Ideal) S_ .f32 0x7F800000#32)) i
      = Ideal.cmp .olt (max (x i) (-(x i))) ⊤ := by
  rw [cmpf_apply]
  show Ideal.cmp .olt (max (x i) (-(x i))) (Ideal.ofBits .f32 0x7F800000#32) = _
  rw [ofBits_top_f32]

/-- If the printed predicate is all ones, every entry of the first and of the fourth argument (the two point sets) is real. -/
theorem finite_of_pre [Cert.Pre_finite_inputs.Facts] (x0 : FVec Ideal S8x512x128 .f32) (x1 : FVec Ideal S8x512x512 .f32) (x2 : IVec S8 32)
    (x3 : FVec Ideal S8x512x128 .f32) (x4 : FVec Ideal S8x512x512 .f32) (x5 : IVec S8 32)
    (h : Cert.Pre_finite_inputs.fn (F := Ideal) x0 x1 x2 x3 x4 x5 = fun _ => 1#1) :
    (∀ i : S8x512x128.Idx, ∃ r : ℝ, x0 i = (r : EReal)) ∧ (∀ i : S8x512x128.Idx, ∃ r : ℝ, x3 i = (r : EReal)) := by
  haveI : Subsingleton S_.Idx := ⟨fun a b => funext fun d => d.elim0⟩
  have h0 : fn (F := Ideal) x0 x1 x2 x3 x4 x5 ix0 = 1#1 := congrFun h ix0
  unfold fn fn_part1 at h0
  dsimp only at h0
  obtain ⟨h13, -⟩ := IntOp.andi_eq_one.1 h0
  obtain ⟨h8, h12⟩ := IntOp.andi_eq_one.1 h13
  obtain ⟨h3, -⟩ := IntOp.andi_eq_one.1 h8
  refine ⟨fun i => real_of_abs_lt_top (x0 i) ?_, fun i => real_of_abs_lt_top (x3 i) ?_⟩
  · rw [← cmp_word_apply x0 i]
    exact Host.reduce_andi_all _ _ _ _ _ h3 i
  · rw [← cmp_word_apply x3 i]
    exact Host.reduce_andi_all _ _ _ _ _ h12 i

end Cert.Hausdorff

end
-- ==== Proof.Bridge.lean ====
/-
  The two idealized programs end with equal results: the kernel's result array holds, word by word, each grid point's
  number, which for real point coordinates (the precondition) is the distance of that batch entry; the reference's
  result holds, entry by entry, the same distance of the same data, the two programs' arguments agreeing.
-/
import proofs.«431092_j45397804319098_1_alg».proof.Defs
import proofs.«431092_j45397804319098_1_alg».proof.Proof.Gen.KernelIdeal
import proofs.«431092_j45397804319098_1_alg».proof.Proof.Gen.ReferenceIdeal
import proofs.«431092_j45397804319098_1_alg».proof.Proof.Gen.Pre_finite_inputs
import proofs.«431092_j45397804319098_1_alg».proof.Proof.IdealValue
import proofs.«431092_j45397804319098_1_alg».proof.Proof.IdealBlocks
import proofs.«431092_j45397804319098_1_alg».proof.Proof.RefRead
import proofs.«431092_j45397804319098_1_alg».proof.Proof.Finite

set_option maxRecDepth 16384

noncomputable section

namespace Cert.Proof.Bridge

open Idealize.ShloMosaic Idealize.ShloMosaic.TcCoe Idealize.ShloMosaic.ValueIdx Idealize.SL.Sem

/-- What the reference's run is required to say: it terminates with its result at the composed stage of the arguments
    and the arguments unchanged. -/
def RefRuns : Prop :=
  ∀ (m' : (ℓ : Loc Cert.ReferenceIdeal.nD Cert.ReferenceIdeal.τ Cert.ReferenceIdeal.sig) → Buf (Elt Ideal) ℓ) (ρ' : Dev Cert.ReferenceIdeal.nD → PrngReg),
    θ_run (Cert.ReferenceIdeal.defs (F := Ideal)) (onTc (τ := Cert.ReferenceIdeal.τ) (Cert.ReferenceIdeal.main (F := Ideal))) ⟨m', fun _ => 0, ρ'⟩ fun r => ∀ c : Dev Cert.ReferenceIdeal.nD,
      r.2.mem ((c.tc : Thread Cert.ReferenceIdeal.nD Cert.ReferenceIdeal.τ).loc Cert.ReferenceIdeal.main_v32)
          = Cert.ReferenceIdeal.ReadP.val_main_v32 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)

/-- Given the reference's run, the two idealized programs end with equal results. -/
theorem algebraic (hrun : RefRuns) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  -- the common result: word b of the kernel's result array is grid point b's number
  refine ⟨fun c => Cert.KernelIdeal.Hand.outArr (F := Ideal) m c, Cert.KernelIdeal.Hand.run_value (F := Ideal) m ρ, ?_⟩
  refine (θ_run Cert.ReferenceIdeal.defs _ _).mono (fun r h c => ⟨(h c).1.trans ?_, (h c).2⟩) (hrun m' ρ')
  -- entry by entry: both sides are the distance of batch entry b of the agreed arguments
  funext y
  obtain ⟨b, rfl⟩ : ∃ b : Fin 8, y = ix1 b := ⟨y 0, eq_ix1 y⟩
  -- the precondition makes every coordinate of both point sets a real number
  have hfin := Cert.Hausdorff.finite_of_pre _ _ _ _ _ _ (hpre c)
  refine (Cert.Hausdorff.ref_eq_dist _ _ _ _ b).trans ?_
  rw [(hagree c).1, (hagree c).2.2.1, (hagree c).2.2.2.1, (hagree c).2.2.2.2.2]
  exact (Cert.KernelIdeal.Hand.dval_eq_dist m c (Cert.KernelIdeal.Hand.ptOf m (ix1 b)) hfin.1 hfin.2).symm

end Cert.Proof.Bridge

end
-- ==== Proof.lean ====
/-
  The certificate's claim: the Pallas kernel and its jnp reference compute the same Hausdorff-style distance of two
  batched point sets, over the extended reals.

  Per batch entry the kernel forms the pairwise distances from the identity ‖a − b‖² = ‖a‖² + ‖b‖² − 2⟨a, b⟩ (two
  lane sums and one matrix product, clamped below at 0 before the root), the reference from the differences
  themselves; for real coordinates — the precondition says every float input is finite — the two agree, the clamp
  changing nothing because a sum of squares is not negative.  Both then switch off the pairs beyond the entry's two
  sizes, take row and column minima, replace rows and columns with no live pair by 0 (the kernel detects them by a
  positive minimum of indicators, the reference by an and-reduction) and return the greater of the two maxima.  The
  kernel runs one batch entry per grid point and stores that entry's number into its word of the 8-word result
  block, which is written back once, after the last point.

  The three frames: the kernel's (at the word-level and at the ideal instance) from the launch theorem over the
  relational proof data of Proof/…Frame.lean and the body's run; the reference's from its run with the result
  dropped.  The ideal pass rewrote nothing, so `preserves` is `True`.
-/
import proofs.«431092_j45397804319098_1_alg».proof.Defs
import proofs.«431092_j45397804319098_1_alg».proof.Proof.Gen.Kernel
import proofs.«431092_j45397804319098_1_alg».proof.Proof.Gen.Kernel.Skeleton
import proofs.«431092_j45397804319098_1_alg».proof.Proof.Gen.Kernel.Launch
import proofs.«431092_j45397804319098_1_alg».proof.Proof.Gen.Kernel.Flash
import proofs.«431092_j45397804319098_1_alg».proof.Proof.Gen.KernelIdeal
import proofs.«431092_j45397804319098_1_alg».proof.Proof.Gen.KernelIdeal.Skeleton
import proofs.«431092_j45397804319098_1_alg».proof.Proof.Gen.KernelIdeal.Launch
import proofs.«431092_j45397804319098_1_alg».proof.Proof.Gen.KernelIdeal.Flash
import proofs.«431092_j45397804319098_1_alg».proof.Proof.Gen.ReferenceIdeal
import proofs.«431092_j45397804319098_1_alg».proof.Proof.Gen.Pre_finite_inputs
import proofs.«431092_j45397804319098_1_alg».proof.Proof.KernelValue
import proofs.«431092_j45397804319098_1_alg».proof.Proof.IdealValue
import proofs.«431092_j45397804319098_1_alg».proof.Proof.RefRun
import proofs.«431092_j45397804319098_1_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunH.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial,
    Cert.Proof.Bridge.algebraic (fun m' ρ' => Cert.ReferenceIdeal.RunH.run (F := Ideal) m' ρ')⟩

end Cert.Proof

end
